-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x1376 : Shape := ⟨2, ![4096, 1376]⟩
abbrev S32x11008 : Shape := ⟨2, ![32, 11008]⟩
abbrev S32x1376 : Shape := ⟨2, ![32, 1376]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S32x11008 : S_.BroadcastsInDim S32x11008 (![] : Fin 0 → Fin S32x11008.rank)
  reducesTo_S32x11008_S_d0_1 : S32x11008.ReducesTo [0, 1] S_

variable [Facts]

def fn {F : FTy → Type} [FloatOps F] (main_arg0 : FVec F S4096x4096 .f32) (main_arg1 : IVec S4096x1376 32) (main_arg2 : FVec F S32x11008 .f32) (main_arg3 : IVec S32x1376 32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S32x11008 .f32 := Host.absf main_arg2
  let main_cst_0 : FVec F S_ .f32 := constant S_ .f32 0x7F800000#32
  let main_v5 : FVec F S32x11008 .f32 := broadcastInDim S32x11008 ![] bcast_S_S32x11008 main_cst_0
  let main_v6 : IVec S32x11008 1 := cmpf .olt main_v4 main_v5
  let main_c_1 : IVec S_ 1 := constantI S_ 1 1#1
  let main_v7 : IVec S_ 1 := (fun x v => Host.reduce IntOp.andi x v reducesTo_S32x11008_S_d0_1 h_S_) main_v6 main_c_1
  let main_v8 : IVec S_ 1 := andi main_v3 main_v7
  main_v8
-- ==== Kernel.lean ====
abbrev S4096x4096 : Shape := ⟨2, ![4096, 4096]⟩
abbrev S4096x1376 : Shape := ⟨2, ![4096, 1376]⟩
abbrev S32x11008 : Shape := ⟨2, ![32, 11008]⟩
abbrev S32x1376 : Shape := ⟨2, ![32, 1376]⟩
abbrev S4096x11008 : Shape := ⟨2, ![4096, 11008]⟩
abbrev S256x128 : Shape := ⟨2, ![256, 128]⟩
abbrev S128x128 : Shape := ⟨2, ![128, 128]⟩
abbrev S32x1024 : Shape := ⟨2, ![32, 1024]⟩
abbrev S32x128 : Shape := ⟨2, ![32, 128]⟩
abbrev S256x1024 : Shape := ⟨2, ![256, 1024]⟩
abbrev S128x128x1 : Shape := ⟨3, ![128, 128, 1]⟩
abbrev S128x128x8 : Shape := ⟨3, ![128, 128, 8]⟩
abbrev S128x1024 : Shape := ⟨2, ![128, 1024]⟩
abbrev S1x128 : Shape := ⟨2, ![1, 128]⟩
abbrev S1x128x1 : Shape := ⟨3, ![1, 128, 1]⟩
abbrev S1x128x8 : Shape := ⟨3, ![1, 128, 8]⟩
abbrev S1x1024 : Shape := ⟨2, ![1, 1024]⟩

abbrev nBuf : Space → Nat
  | .hbm => 5
  | .vmem => 11
  | .smem => 0
  | _ => 0

abbrev bufTy : (tb : Table) → Fin (tcTables nBuf tb) → BufTy
  | .hbm, ⟨0, _⟩ => ⟨S4096x4096, .f32⟩
  | .hbm, ⟨1, _⟩ => ⟨S4096x1376, .i32⟩
  | .hbm, ⟨2, _⟩ => ⟨S32x11008, .f32⟩
  | .hbm, ⟨3, _⟩ => ⟨S32x1376, .i32⟩
  | .hbm, ⟨4, _⟩ => ⟨S4096x11008, .f32⟩
  | .local _ .vmem, ⟨0, _⟩ => ⟨S256x128, .f32⟩
  | .local _ .vmem, ⟨1, _⟩ => ⟨S256x128, .f32⟩
  | .local _ .vmem, ⟨2, _⟩ => ⟨S128x128, .i32⟩
  | .local _ .vmem, ⟨3, _⟩ => ⟨S128x128, .i32⟩
  | .local _ .vmem, ⟨4, _⟩ => ⟨S32x1024, .f32⟩
  | .local _ .vmem, ⟨5, _⟩ => ⟨S32x1024, .f32⟩
  | .local _ .vmem, ⟨6, _⟩ => ⟨S32x128, .i32⟩
  | .local _ .vmem, ⟨7, _⟩ => ⟨S32x128, .i32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 11, 32], ![false, false, false]⟩

def k0_off1 (i : grid0.Coords) : Fin 2 → Nat :=
  let arg2 : BitVec 32 := BitVec.ofNat 32 (i 2).val
  let v47 : Index := Scalar.indexCast arg2
  let c0_10 : Index := 0#32
  ![v47.toNat, 0]
def k0_off2 (i : grid0.Coords) : Fin 2 → Nat :=
  let arg2 : BitVec 32 := BitVec.ofNat 32 (i 2).val
  let v92 : Index := Scalar.indexCast arg2
  let c0_27 : Index := 0#32
  ![v92.toNat, 0]
def k0_cond2 (i : grid0.Coords) : BitVec 1 :=
  let arg2 : BitVec 32 := BitVec.ofNat 32 (i 2).val
  let c31_i32 : BitVec 32 := 31#32
  let v107 : BitVec 1 := Scalar.cmpi .eq arg2 c31_i32
  let v108 : BitVec 32 := Scalar.extui v107
  let c0_i32_34 : BitVec 32 := 0#32
  let v109 : BitVec 1 := Scalar.cmpi .ne v108 c0_i32_34
  v109

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S128x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S32x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S128x128_S128x128_0_0 : ∀ a, (![0, 0] : Fin 2 → Nat) a + S128x128.size a ≤ S128x128.size a
  h_S128x128 : 0 < S128x128.numel
  shapeCasts_S128x128_S128x128x1 : S128x128.ShapeCasts S128x128x1
  concatenates_S128x128x1_S128x128x1_S128x128x1_S128x128x1_S128x128x1_S128x128x1_S128x128x1_S128x128x1_S128x128x8_d2 : Shape.Concatenates [S128x128x1, S128x128x1, S128x128x1, S128x128x1, S128x128x1, S128x128x1, S128x128x1, S128x128x1] S128x128x8 2
  shapeCasts_S128x128x8_S128x1024 : S128x128x8.ShapeCasts S128x1024
  h_S1x128 : 0 < S1x128.numel
  shapeCasts_S1x128_S1x128x1 : S1x128.ShapeCasts S1x128x1
  concatenates_S1x128x1_S1x128x1_S1x128x1_S1x128x1_S1x128x1_S1x128x1_S1x128x1_S1x128x1_S1x128x8_d2 : Shape.Concatenates [S1x128x1, S1x128x1, S1x128x1, S1x128x1, S1x128x1, S1x128x1, S1x128x1, S1x128x1] S1x128x8 2
  shapeCasts_S1x128x8_S1x1024 : S1x128x8.ShapeCasts S1x1024
  h_S1x1024 : 0 < S1x1024.numel
  broadcasts_S1x1024_S128x1024 : S1x1024.Broadcasts S128x1024
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  dot_S256x128_S128x1024_S256x1024_1_0_0_1_n_n_wf : DotDims.WF S256x128 S128x1024 S256x1024 [1] [0] [0] [1] [] []
  hrank0 : 0 < grid0.rank
  k0_off1_inb : ∀ i : grid0.Coords, ∀ a, (k0_off1 i) a + S1x128.size a ≤ S32x128.size a
  k0_off2_inb : ∀ i : grid0.Coords, ∀ a, (k0_off2 i) a + S1x1024.size a ≤ S32x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S4096x4096.size a
  hwx0_0 : ∀ i : grid0.Coords, EltTy.bits .f32 = 32 ∨ (Rect.block (s := S4096x4096) S256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S128x128.size a < S4096x1376.size a
  hwx0_1 : ∀ i : grid0.Coords, EltTy.bits .i32 = 32 ∨ (Rect.unit (s := S4096x1376) (fun a => cc0_transform_1 i a * S128x128.size a) (fun a => (Pipeline.Clip.of (cc0_transform_1 i a) (S128x128.size a) (S4096x1376.size a)).extent (S128x128.size a)) fun a => Pipeline.Clip.inb (Pipeline.Clip.ok_of (hstart0_1 i a))).WholeWords (EltTy.packing .i32)
  hwxs0_1 : ∀ i : grid0.Coords, EltTy.bits .i32 = 32 ∨ (Rect.unit (s := S128x128) (fun _ => 0) (fun a => (Pipeline.Clip.of (cc0_transform_1 i a) (S128x128.size a) (S4096x1376.size a)).extent (S128x128.size a)) fun a => (Nat.zero_add _).trans_le (Pipeline.Clip.extent_le (Pipeline.Clip.ok_of (hstart0_1 i a)))).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S32x1024.size a < S32x11008.size a
  hwx0_2 : ∀ i : grid0.Coords, EltTy.bits .f32 = 32 ∨ (Rect.unit (s := S32x11008) (fun a => cc0_transform_2 i a * S32x1024.size a) (fun a => (Pipeline.Clip.of (cc0_transform_2 i a) (S32x1024.size a) (S32x11008.size a)).extent (S32x1024.size a)) fun a => Pipeline.Clip.inb (Pipeline.Clip.ok_of (hstart0_2 i a))).WholeWords (EltTy.packing .f32)
  hwxs0_2 : ∀ i : grid0.Coords, EltTy.bits .f32 = 32 ∨ (Rect.unit (s := S32x1024) (fun _ => 0) (fun a => (Pipeline.Clip.of (cc0_transform_2 i a) (S32x1024.size a) (S32x11008.size a)).extent (S32x1024.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S32x128.size a < S32x1376.size a
  hwx0_3 : ∀ i : grid0.Coords, EltTy.bits .i32 = 32 ∨ (Rect.unit (s := S32x1376) (fun a => cc0_transform_3 i a * S32x128.size a) (fun a => (Pipeline.Clip.of (cc0_transform_3 i a) (S32x128.size a) (S32x1376.size a)).extent (S32x128.size a)) fun a => Pipeline.Clip.inb (Pipeline.Clip.ok_of (hstart0_3 i a))).WholeWords (EltTy.packing .i32)
  hwxs0_3 : ∀ i : grid0.Coords, EltTy.bits .i32 = 32 ∨ (Rect.unit (s := S32x128) (fun _ => 0) (fun a => (Pipeline.Clip.of (cc0_transform_3 i a) (S32x128.size a) (S32x1376.size a)).extent (S32x128.size a)) fun a => (Nat.zero_add _).trans_le (Pipeline.Clip.extent_le (Pipeline.Clip.ok_of (hstart0_3 i a)))).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S256x1024.size a < S4096x11008.size a
  hwx0_4 : ∀ i : grid0.Coords, EltTy.bits .f32 = 32 ∨ (Rect.unit (s := S4096x11008) (fun a => cc0_transform_4 i a * S256x1024.size a) (fun a => (Pipeline.Clip.of (cc0_transform_4 i a) (S256x1024.size a) (S4096x11008.size a)).extent (S256x1024.size a)) fun a => Pipeline.Clip.inb (Pipeline.Clip.ok_of (hstart0_4 i a))).WholeWords (EltTy.packing .f32)
  hwxs0_4 : ∀ i : grid0.Coords, EltTy.bits .f32 = 32 ∨ (Rect.unit (s := S256x1024) (fun _ => 0) (fun a => (Pipeline.Clip.of (cc0_transform_4 i a) (S256x1024.size a) (S4096x11008.size a)).extent (S256x1024.size a)) fun a => (Nat.zero_add _).trans_le (Pipeline.Clip.extent_le (Pipeline.Clip.ok_of (hstart0_4 i a)))).WholeWords (EltTy.packing .f32)

variable [Facts₀]

def dot_S256x128_S128x1024_S256x1024_1_0_0_1_n_n : DotDims S256x128 S128x1024 S256x1024 where
  lhsContracting := [1]
  rhsContracting := [0]
  lhsNonContracting := [0]
  rhsNonContracting := [1]
  lhsBatch := []
  rhsBatch := []
  wf := dot_S256x128_S128x1024_S256x1024_1_0_0_1_n_n_wf

abbrev win0_0 : Pipeline.Window sig grid0 :=
  Pipeline.Window.ofSpec (Memref.whole main_arg0) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S128x128.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_arg2) S32x1024.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_arg3) S32x128.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_v0) S256x1024.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096x1376 : Shape := ⟨2, ![4096, 1376]⟩
abbrev S32x11008 : Shape := ⟨2, ![32, 11008]⟩
abbrev S32x1376 : Shape := ⟨2, ![32, 1376]⟩
abbrev S8 : Shape := ⟨1, ![8]⟩
abbrev S4096x1376x1 : Shape := ⟨3, ![4096, 1376, 1]⟩
abbrev S1x1x8 : Shape := ⟨3, ![1, 1, 8]⟩
abbrev S4096x1376x8 : Shape := ⟨3, ![4096, 1376, 8]⟩
abbrev S_ : Shape := ⟨0, ![]⟩
abbrev S4096x11008 : Shape := ⟨2, ![4096, 11008]⟩
abbrev S32x1376x1 : Shape := ⟨3, ![32, 1376, 1]⟩
abbrev S32x1376x8 : Shape := ⟨3, ![32, 1376, 8]⟩
abbrev S32x128x11008 : Shape := ⟨3, ![32, 128, 11008]⟩

abbrev nBuf : Space → Nat
  | .hbm => 32
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1376, .i32⟩
  | .hbm, ⟨2, _⟩ => ⟨S32x11008, .f32⟩
  | .hbm, ⟨3, _⟩ => ⟨S32x1376, .i32⟩
  | .hbm, ⟨4, _⟩ => ⟨S8, .i32⟩
  | .hbm, ⟨5, _⟩ => ⟨S4096x1376x1, .i32⟩
  | .hbm, ⟨6, _⟩ => ⟨S1x1x8, .i32⟩
  | .hbm, ⟨7, _⟩ => ⟨S4096x1376x8, .i32⟩
  | .hbm, ⟨8, _⟩ => ⟨S4096x1376x8, .i32⟩
  | .hbm, ⟨9, _⟩ => ⟨S4096x1376x8, .i32⟩
  | .hbm, ⟨10, _⟩ => ⟨S_, .i32⟩
  | .hbm, ⟨11, _⟩ => ⟨S4096x1376x8, .i32⟩
  | .hbm, ⟨12, _⟩ => ⟨S4096x1376x8, .i32⟩
  | .hbm, ⟨13, _⟩ => ⟨S4096x11008, .i32⟩
  | .hbm, ⟨14, _⟩ => ⟨S4096x11008, .f32⟩
  | .hbm, ⟨15, _⟩ => ⟨S32x1376x1, .i32⟩
  | .hbm, ⟨16, _⟩ => ⟨S1x1x8, .i32⟩
  | .hbm, ⟨17, _⟩ => ⟨S32x1376x8, .i32⟩
  | .hbm, ⟨18, _⟩ => ⟨S32x1376x8, .i32⟩
  | .hbm, ⟨19, _⟩ => ⟨S32x1376x8, .i32⟩
  | .hbm, ⟨20, _⟩ => ⟨S_, .i32⟩
  | .hbm, ⟨21, _⟩ => ⟨S32x1376x8, .i32⟩
  | .hbm, ⟨22, _⟩ => ⟨S32x1376x8, .i32⟩
  | .hbm, ⟨23, _⟩ => ⟨S32x11008, .i32⟩
  | .hbm, ⟨24, _⟩ => ⟨S32x11008, .f32⟩
  | .hbm, ⟨25, _⟩ => ⟨S32x128x11008, .f32⟩
  | .hbm, ⟨26, _⟩ => ⟨S4096x11008, .f32⟩
  | .hbm, ⟨27, _⟩ => ⟨S32x128x11008, .f32⟩
  | .hbm, ⟨28, _⟩ => ⟨S4096x11008, .f32⟩
  | .hbm, ⟨29, _⟩ => ⟨S4096x11008, .f32⟩
  | .hbm, ⟨30, _⟩ => ⟨S4096x11008, .f32⟩
  | .hbm, ⟨31, _⟩ => ⟨S4096x11008, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]

class Facts₀ : Prop where
  bcast_S4096x1376_S4096x1376x1_0_1 : S4096x1376.BroadcastsInDim S4096x1376x1 (![0, 1] : Fin 2 → Fin S4096x1376x1.rank)
  bcast_S8_S1x1x8_2 : S8.BroadcastsInDim S1x1x8 (![2] : Fin 1 → Fin S1x1x8.rank)
  bcast_S4096x1376x1_S4096x1376x8_0_1_2 : S4096x1376x1.BroadcastsInDim S4096x1376x8 (![0, 1, 2] : Fin 3 → Fin S4096x1376x8.rank)
  bcast_S1x1x8_S4096x1376x8_0_1_2 : S1x1x8.BroadcastsInDim S4096x1376x8 (![0, 1, 2] : Fin 3 → Fin S4096x1376x8.rank)
  bcast_S_S4096x1376x8 : S_.BroadcastsInDim S4096x1376x8 (![] : Fin 0 → Fin S4096x1376x8.rank)
  shapeCasts_S4096x1376x8_S4096x11008 : S4096x1376x8.ShapeCasts S4096x11008
  bcast_S32x1376_S32x1376x1_0_1 : S32x1376.BroadcastsInDim S32x1376x1 (![0, 1] : Fin 2 → Fin S32x1376x1.rank)
  bcast_S32x1376x1_S32x1376x8_0_1_2 : S32x1376x1.BroadcastsInDim S32x1376x8 (![0, 1, 2] : Fin 3 → Fin S32x1376x8.rank)
  bcast_S1x1x8_S32x1376x8_0_1_2 : S1x1x8.BroadcastsInDim S32x1376x8 (![0, 1, 2] : Fin 3 → Fin S32x1376x8.rank)
  bcast_S_S32x1376x8 : S_.BroadcastsInDim S32x1376x8 (![] : Fin 0 → Fin S32x1376x8.rank)
  shapeCasts_S32x1376x8_S32x11008 : S32x1376x8.ShapeCasts S32x11008
  bcast_S32x11008_S32x128x11008_0_2 : S32x11008.BroadcastsInDim S32x128x11008 (![0, 2] : Fin 2 → Fin S32x128x11008.rank)
  shapeCasts_S32x128x11008_S4096x11008 : S32x128x11008.ShapeCasts S4096x11008
  dot_S4096x4096_S4096x11008_S4096x11008_1_0_0_1_n_n_wf : DotDims.WF S4096x4096 S4096x11008 S4096x11008 [1] [0] [0] [1] [] []

variable [Facts₀]

def dot_S4096x4096_S4096x11008_S4096x11008_1_0_0_1_n_n : DotDims S4096x4096 S4096x11008 S4096x11008 where
  lhsContracting := [1]
  rhsContracting := [0]
  lhsNonContracting := [0]
  rhsNonContracting := [1]
  lhsBatch := []
  rhsBatch := []
  wf := dot_S4096x4096_S4096x11008_S4096x11008_1_0_0_1_n_n_wf

class Facts : Prop extends Facts₀ where

variable [Facts]
-- ==== Proof.KStep.lean ====
/-
  One grid point of the kernel as a pure function, at any float instance.

  At point (mi, n, g) the body reads the 256×128 block of `x`, the 128×128 block of packed weights, row `g` of the
  32×128 block of packed zero points and row `g` of the 32×1024 block of scales; it unpacks the eight fields of every
  word side by side (128 packed columns become 1024 columns), subtracts the zero points, multiplies by the scales and
  adds the 256×1024 product of the `x` block with that 128×1024 matrix to the accumulator. `stepAcc` is that update of
  the accumulator, written over the body's own named payloads. The accumulator starts from zeros at g = 0 (`accIn`),
  and the output block receives the accumulator at g = 31 and is left alone elsewhere (`outOf`).
-/
import proofs.«414033_j56195352101389_4_alg».proof.Proof.Gen.Kernel.Skeleton
import proofs.«414033_j56195352101389_4_alg».proof.Proof.Gen.Kernel.Points
import Idealize.ShloMosaic.Lib.Pipeline.FrameBody

noncomputable section

namespace Cert.Kernel.Awq

open Cert.Kernel Cert.Kernel.Gen
open Idealize.ShloMosaic Idealize.ShloMosaic.TcCoe
open Idealize.SL Idealize.SL.Sem

variable {F : FTy → Type} [FloatOps F]

/-- Row `g` of the zero-point block, as the body loads it. -/
abbrev qzRow (i : grid0.Coords) (Y3 : Vec F S32x128 .i32) : Vec F S1x128 .i32 :=
  View.ld Y3 (Rect.unit (s := S32x128) (k0_off1 i) S1x128.size (Facts₀.k0_off1_inb i))

/-- Row `g` of the scale block, as the body loads it. -/
abbrev scRow (i : grid0.Coords) (Y2 : Vec F S32x1024 .f32) : Vec F S1x1024 .f32 :=
  View.ld Y2 (Rect.unit (s := S32x1024) (k0_off2 i) S1x1024.size (Facts₀.k0_off2_inb i))

/-- The accumulator after the point's update: `acc + x_block · dequant(weights block)`. -/
def stepAcc (i : grid0.Coords) (Y0 : Vec F S256x128 .f32) (Y1 : Vec F S128x128 .i32) (Y2 : Vec F S32x1024 .f32)
    (Y3 : Vec F S32x128 .i32) (acc : Vec F S256x1024 .f32) : Vec F S256x1024 .f32 :=
  k0_pay1 (F := F)
    (k0_pay11 (F := F) (k0_pay3 (F := F) Y1) (k0_pay4 (F := F) Y1) (k0_pay5 (F := F) Y1) (k0_pay6 (F := F) Y1)
      (k0_pay7 (F := F) Y1) (k0_pay8 (F := F) Y1) (k0_pay9 (F := F) Y1) (k0_pay10 (F := F) Y1))
    (k0_pay12 (F := F) (qzRow i Y3)) (k0_pay13 (F := F) (qzRow i Y3)) (k0_pay14 (F := F) (qzRow i Y3))
    (k0_pay15 (F := F) (qzRow i Y3)) (k0_pay16 (F := F) (qzRow i Y3)) (k0_pay17 (F := F) (qzRow i Y3))
    (k0_pay18 (F := F) (qzRow i Y3)) (k0_pay19 (F := F) (qzRow i Y3)) 15#32 (scRow i Y2) Y0 acc

/-- What the update starts from: zeros at a group's first point, else what the point before left. -/
def accIn (t : Fin cfg0.N) (YS : Vec F S256x1024 .f32) : Vec F S256x1024 .f32 :=
  if t.val % 32 = 0 then k0_pay2 (F := F) else YS

/-- The scratch accumulator after point `t`. -/
def accOf (t : Fin cfg0.N) (Y0 : Vec F S256x128 .f32) (Y1 : Vec F S128x128 .i32) (Y2 : Vec F S32x1024 .f32)
    (Y3 : Vec F S32x128 .i32) (YS : Vec F S256x1024 .f32) : Vec F S256x1024 .f32 :=
  stepAcc (grid0.coords t) Y0 Y1 Y2 Y3 (accIn t YS)

/-- The output's staging buffer after point `t`: the accumulator at a group's last point, else untouched. -/
def outOf (t : Fin cfg0.N) (Y0 : Vec F S256x128 .f32) (Y1 : Vec F S128x128 .i32) (Y2 : Vec F S32x1024 .f32)
    (Y3 : Vec F S32x128 .i32) (Y4 YS : Vec F S256x1024 .f32) : Vec F S256x1024 .f32 :=
  if t.val % 32 = 31 then accOf t Y0 Y1 Y2 Y3 YS else Y4

/-- The point's staging memrefs as the pipeline passes them, and the scratch. -/
abbrev ms0_0 (t : Fin cfg0.N) : Memref sig .tc .vmem S256x128 .f32 := win0_0.stage (cfg0.slots t 0)
abbrev hs0_0 (t : Fin cfg0.N) : (ms0_0 t).IsWhole := Facts₀.hstage0_0 ((cfg0.slots t 0).cast Facts₀.nbuf0_0)
abbrev ms0_1 (t : Fin cfg0.N) : Memref sig .tc .vmem S128x128 .i32 := win0_1.stage (cfg0.slots t 1)
abbrev hs0_1 (t : Fin cfg0.N) : (ms0_1 t).IsWhole := Facts₀.hstage0_1 ((cfg0.slots t 1).cast Facts₀.nbuf0_1)
abbrev ms0_2 (t : Fin cfg0.N) : Memref sig .tc .vmem S32x1024 .f32 := win0_2.stage (cfg0.slots t 2)
abbrev hs0_2 (t : Fin cfg0.N) : (ms0_2 t).IsWhole := Facts₀.hstage0_2 ((cfg0.slots t 2).cast Facts₀.nbuf0_2)
abbrev ms0_3 (t : Fin cfg0.N) : Memref sig .tc .vmem S32x128 .i32 := win0_3.stage (cfg0.slots t 3)
abbrev hs0_3 (t : Fin cfg0.N) : (ms0_3 t).IsWhole := Facts₀.hstage0_3 ((cfg0.slots t 3).cast Facts₀.nbuf0_3)
abbrev ms0_4 (t : Fin cfg0.N) : Memref sig .tc .vmem S256x1024 .f32 := win0_4.stage (cfg0.slots t 4)
abbrev hs0_4 (t : Fin cfg0.N) : (ms0_4 t).IsWhole := Facts₀.hstage0_4 ((cfg0.slots t 4).cast Facts₀.nbuf0_4)
abbrev scM : Memref sig .tc .vmem S256x1024 .f32 := Memref.whole cc0_scratch0

end Cert.Kernel.Awq

end
-- ==== Proof.KRun.lean ====
/-
  The kernel body at one grid point, as a triple at any float instance: from the five staging buffers and the
  scratch accumulator at any contents, the body runs without a fault and leaves the four input buffers as they were,
  the scratch at the updated accumulator (`accOf`) and the output buffer at the accumulator at a group's last
  point, untouched elsewhere (`outOf`).

  The body branches twice on the third grid coordinate g: it zeroes the accumulator when g = 0, and it copies the
  accumulator into the output block when g = 31. So a point is of one of three kinds (g = 0, 0 < g < 31, g = 31),
  and on each kind the body is a straight line of loads and stores through whole buffers. Every store covers its
  whole buffer, so what a buffer holds afterwards is the last value stored into it, and a load that follows a store
  reads that value: at g = 0 the update starts from zeros whatever the scratch held, and at g = 31 the output block
  receives the accumulator AFTER the point's update.
-/
import proofs.«414033_j56195352101389_4_alg».proof.Proof.KStep
import proofs.«414033_j56195352101389_4_alg».proof.Proof.Gen.Kernel.Launch
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Awq

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The two tests on the third coordinate -/

/-- The first conditional's test, as the body computes it from the coordinates: the third coordinate is zero. -/
abbrev cond1 (i : grid0.Coords) : Prop :=
  (Scalar.cmpi .ne (Scalar.extui (Scalar.cmpi .eq (BitVec.ofNat 32 (i 2).val) 0#32)) 0#32) = 1#1
/-- The second conditional's test: the third coordinate is 31. -/
abbrev cond2 (i : grid0.Coords) : Prop := k0_cond2 i = 1#1

/-- Point `t` has third coordinate `t % 32`: the first test holds exactly at the points ≡ 0 (mod 32), -/
theorem hcond1 : ∀ t : Fin cfg0.N, cond1 (grid0.coords t) ↔ t.val % 32 = 0 :=
  (by decide +kernel : ∀ t : Fin grid0.N, cond1 (grid0.coords t) ↔ t.val % 32 = 0)
/-- and the second exactly at the points ≡ 31 (mod 32). Both are decided over the 5632 points. -/
theorem hcond2 : ∀ t : Fin cfg0.N, cond2 (grid0.coords t) ↔ t.val % 32 = 31 :=
  (by decide +kernel : ∀ t : Fin grid0.N, cond2 (grid0.coords t) ↔ t.val % 32 = 31)

/-- The zero offsets of a load or store through a whole buffer, however they are spelt. -/
private theorem hz : (![0, 0] : Fin 2 → Nat) = fun _ => 0 := funext fun a => by fin_cases a <;> rfl

/-! ## The body on any whole buffers, kind by kind

Each statement is over any six whole buffers and any coordinates at which the two tests are decided as the kind says;
the buffers' contents are named by what they read (`Y0 … Y4`, `YS`), and every value the body computes is a term over
those. -/

set_option maxHeartbeats 1000000 in
/-- A group's FIRST point (the first test holds, the second does not): the scratch is overwritten with zeros, the
    update reads the zeros back, and the scratch ends at `stepAcc` of zeros — two covering stores, of which the later
    one stays. The output buffer is not touched. -/
theorem run_first (c : Dev nD) (i : grid0.Coords)
    (arg3 : Memref sig .tc .vmem S256x128 .f32) (harg3 : arg3.IsWhole)
    (arg4 : Memref sig .tc .vmem S128x128 .i32) (harg4 : arg4.IsWhole)
    (arg5 : Memref sig .tc .vmem S32x1024 .f32) (harg5 : arg5.IsWhole)
    (arg6 : Memref sig .tc .vmem S32x128 .i32) (harg6 : arg6.IsWhole)
    (arg7 : Memref sig .tc .vmem S256x1024 .f32) (harg7 : arg7.IsWhole)
    (arg8 : Memref sig .tc .vmem S256x1024 .f32) (harg8 : arg8.IsWhole)
    (hc1 : cond1 i) (hc2 : ¬cond2 i)
    (Y0 : Vec F S256x128 .f32) (Y1 : Vec F S128x128 .i32)
    (Y2 : Vec F S32x1024 .f32) (Y3 : Vec F S32x128 .i32) (Y4 YS : Vec F S256x1024 .f32) (K : PUnit → sProp 𝕄) :
    iprop(owns (c : Thread nD τ) arg3 fullShare Y0 ∗ owns (c : Thread nD τ) arg4 fullShare Y1
        ∗ owns (c : Thread nD τ) arg5 fullShare Y2 ∗ owns (c : Thread nD τ) arg6 fullShare Y3
        ∗ owns (c : Thread nD τ) arg7 fullShare Y4 ∗ owns (c : Thread nD τ) arg8 fullShare YS
        ∗ (iprop(owns (c : Thread nD τ) arg3 fullShare Y0 ∗ owns (c : Thread nD τ) arg4 fullShare Y1
              ∗ owns (c : Thread nD τ) arg5 fullShare Y2 ∗ owns (c : Thread nD τ) arg6 fullShare Y3
              ∗ owns (c : Thread nD τ) arg7 fullShare (Y4)
              ∗ owns (c : Thread nD τ) arg8 fullShare (stepAcc i Y0 Y1 Y2 Y3 (k0_pay2 (F := F)))) -∗ K ⟨⟩))
      ⊢ wp frame (wpE (defs₀ (F := F)) Variants.none c none) Set.univ
          (cc0__awq_matmul_kernel i arg3 harg3 arg4 harg4 arg5 harg5 arg6 harg6 arg7 harg7 arg8 harg8) K := by
  simp only [cc0__awq_matmul_kernel_eq_skeleton]; unfold cc0__awq_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg3.eq_unread hf0; obtain rfl := harg4.eq_unread hf1
  obtain rfl := harg5.eq_unread hf2; obtain rfl := harg6.eq_unread hf3
  obtain rfl := harg7.eq_unread hf4; obtain rfl := harg8.eq_unread hfs
  sl_exec (disch := first | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  iexists _; isplitr
  swap; · iexact HS
  ipureintro
  sl_unfold_run_names
  rw [View.read_writes_eq_canon _ _ _ (fun y => ⟨_, List.Mem.head _, View.mem_set_unit_zero hz inb_S256x1024_S256x1024_0_0 y⟩)]
  rw [View.canon_cons_unit_zero (S := S256x1024) hz]
  simp only [View.readAt_eq_ld, harg3.read_unread, harg4.read_unread, harg5.read_unread, harg6.read_unread,
    harg8.read_unread, View.ld_unit_zero (S := S256x128) hz, View.ld_unit_zero (S := S128x128) hz,
    View.ld_unit_zero (S := S256x1024) hz, View.readCov_unit_zero (S := S256x1024) _ hz]
  rfl

set_option maxHeartbeats 1000000 in
/-- A point strictly INSIDE a group (neither test holds): one covering store into the scratch, of `stepAcc` of what
    the scratch held. The output buffer is not touched. -/
theorem run_mid (c : Dev nD) (i : grid0.Coords)
    (arg3 : Memref sig .tc .vmem S256x128 .f32) (harg3 : arg3.IsWhole)
    (arg4 : Memref sig .tc .vmem S128x128 .i32) (harg4 : arg4.IsWhole)
    (arg5 : Memref sig .tc .vmem S32x1024 .f32) (harg5 : arg5.IsWhole)
    (arg6 : Memref sig .tc .vmem S32x128 .i32) (harg6 : arg6.IsWhole)
    (arg7 : Memref sig .tc .vmem S256x1024 .f32) (harg7 : arg7.IsWhole)
    (arg8 : Memref sig .tc .vmem S256x1024 .f32) (harg8 : arg8.IsWhole)
    (hc1 : ¬cond1 i) (hc2 : ¬cond2 i)
    (Y0 : Vec F S256x128 .f32) (Y1 : Vec F S128x128 .i32)
    (Y2 : Vec F S32x1024 .f32) (Y3 : Vec F S32x128 .i32) (Y4 YS : Vec F S256x1024 .f32) (K : PUnit → sProp 𝕄) :
    iprop(owns (c : Thread nD τ) arg3 fullShare Y0 ∗ owns (c : Thread nD τ) arg4 fullShare Y1
        ∗ owns (c : Thread nD τ) arg5 fullShare Y2 ∗ owns (c : Thread nD τ) arg6 fullShare Y3
        ∗ owns (c : Thread nD τ) arg7 fullShare Y4 ∗ owns (c : Thread nD τ) arg8 fullShare YS
        ∗ (iprop(owns (c : Thread nD τ) arg3 fullShare Y0 ∗ owns (c : Thread nD τ) arg4 fullShare Y1
              ∗ owns (c : Thread nD τ) arg5 fullShare Y2 ∗ owns (c : Thread nD τ) arg6 fullShare Y3
              ∗ owns (c : Thread nD τ) arg7 fullShare (Y4)
              ∗ owns (c : Thread nD τ) arg8 fullShare (stepAcc i Y0 Y1 Y2 Y3 YS)) -∗ K ⟨⟩))
      ⊢ wp frame (wpE (defs₀ (F := F)) Variants.none c none) Set.univ
          (cc0__awq_matmul_kernel i arg3 harg3 arg4 harg4 arg5 harg5 arg6 harg6 arg7 harg7 arg8 harg8) K := by
  simp only [cc0__awq_matmul_kernel_eq_skeleton]; unfold cc0__awq_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg3.eq_unread hf0; obtain rfl := harg4.eq_unread hf1
  obtain rfl := harg5.eq_unread hf2; obtain rfl := harg6.eq_unread hf3
  obtain rfl := harg7.eq_unread hf4; obtain rfl := harg8.eq_unread hfs
  sl_exec (disch := first | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  iexists _; isplitr
  swap; · iexact HS
  ipureintro
  sl_unfold_run_names
  rw [View.read_writes_eq_canon _ _ _ (fun y => ⟨_, List.Mem.head _, View.mem_set_unit_zero hz inb_S256x1024_S256x1024_0_0 y⟩)]
  rw [View.canon_unit_zero hz]
  simp only [View.readAt_eq_ld, harg3.read_unread, harg4.read_unread, harg5.read_unread, harg6.read_unread,
    harg8.read_unread, View.ld_unit_zero (S := S256x128) hz, View.ld_unit_zero (S := S128x128) hz,
    View.ld_unit_zero (S := S256x1024) hz, View.readCov_unit_zero (S := S256x1024) _ hz]
  rfl

set_option maxHeartbeats 1000000 in
/-- A group's LAST point (the second test holds, the first does not): the scratch is updated as inside a group, then
    read back and stored whole into the output buffer — so both end at `stepAcc` of what the scratch held. -/
theorem run_last (c : Dev nD) (i : grid0.Coords)
    (arg3 : Memref sig .tc .vmem S256x128 .f32) (harg3 : arg3.IsWhole)
    (arg4 : Memref sig .tc .vmem S128x128 .i32) (harg4 : arg4.IsWhole)
    (arg5 : Memref sig .tc .vmem S32x1024 .f32) (harg5 : arg5.IsWhole)
    (arg6 : Memref sig .tc .vmem S32x128 .i32) (harg6 : arg6.IsWhole)
    (arg7 : Memref sig .tc .vmem S256x1024 .f32) (harg7 : arg7.IsWhole)
    (arg8 : Memref sig .tc .vmem S256x1024 .f32) (harg8 : arg8.IsWhole)
    (hc1 : ¬cond1 i) (hc2 : cond2 i)
    (Y0 : Vec F S256x128 .f32) (Y1 : Vec F S128x128 .i32)
    (Y2 : Vec F S32x1024 .f32) (Y3 : Vec F S32x128 .i32) (Y4 YS : Vec F S256x1024 .f32) (K : PUnit → sProp 𝕄) :
    iprop(owns (c : Thread nD τ) arg3 fullShare Y0 ∗ owns (c : Thread nD τ) arg4 fullShare Y1
        ∗ owns (c : Thread nD τ) arg5 fullShare Y2 ∗ owns (c : Thread nD τ) arg6 fullShare Y3
        ∗ owns (c : Thread nD τ) arg7 fullShare Y4 ∗ owns (c : Thread nD τ) arg8 fullShare YS
        ∗ (iprop(owns (c : Thread nD τ) arg3 fullShare Y0 ∗ owns (c : Thread nD τ) arg4 fullShare Y1
              ∗ owns (c : Thread nD τ) arg5 fullShare Y2 ∗ owns (c : Thread nD τ) arg6 fullShare Y3
              ∗ owns (c : Thread nD τ) arg7 fullShare (stepAcc i Y0 Y1 Y2 Y3 YS)
              ∗ owns (c : Thread nD τ) arg8 fullShare (stepAcc i Y0 Y1 Y2 Y3 YS)) -∗ K ⟨⟩))
      ⊢ wp frame (wpE (defs₀ (F := F)) Variants.none c none) Set.univ
          (cc0__awq_matmul_kernel i arg3 harg3 arg4 harg4 arg5 harg5 arg6 harg6 arg7 harg7 arg8 harg8) K := by
  simp only [cc0__awq_matmul_kernel_eq_skeleton]; unfold cc0__awq_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg3.eq_unread hf0; obtain rfl := harg4.eq_unread hf1
  obtain rfl := harg5.eq_unread hf2; obtain rfl := harg6.eq_unread hf3
  obtain rfl := harg7.eq_unread hf4; obtain rfl := harg8.eq_unread hfs
  sl_exec (disch := first | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro
    sl_unfold_run_names
    rw [View.read_writes_eq_canon _ _ _ (fun y => ⟨_, List.Mem.head _, View.mem_set_unit_zero hz inb_S256x1024_S256x1024_0_0 y⟩)]
    rw [View.canon_unit_zero hz]
    simp only [View.readAt_eq_ld, harg3.read_unread, harg4.read_unread, harg5.read_unread, harg6.read_unread,
    harg8.read_unread, View.ld_unit_zero (S := S256x128) hz, View.ld_unit_zero (S := S128x128) hz,
    View.ld_unit_zero (S := S256x1024) hz, View.readCov_unit_zero (S := S256x1024) _ hz]
    rfl
  iexists _; isplitr
  swap; · iexact HS
  ipureintro
  sl_unfold_run_names
  rw [View.read_writes_eq_canon _ _ _ (fun y => ⟨_, List.Mem.head _, View.mem_set_unit_zero hz inb_S256x1024_S256x1024_0_0 y⟩)]
  rw [View.canon_unit_zero hz]
  simp only [View.readAt_eq_ld, harg3.read_unread, harg4.read_unread, harg5.read_unread, harg6.read_unread,
    harg8.read_unread, View.ld_unit_zero (S := S256x128) hz, View.ld_unit_zero (S := S128x128) hz,
    View.ld_unit_zero (S := S256x1024) hz, View.readCov_unit_zero (S := S256x1024) _ hz]
  rfl

/-! ## The body at a grid point -/

theorem sound_step (c : Dev nD) (t : Fin cfg0.N) (Y0 : Vec F S256x128 .f32) (Y1 : Vec F S128x128 .i32)
    (Y2 : Vec F S32x1024 .f32) (Y3 : Vec F S32x128 .i32) (Y4 YS : Vec F S256x1024 .f32) (K : PUnit → sProp 𝕄) :
    iprop(owns (c : Thread nD τ) (ms0_0 t) fullShare Y0 ∗ owns (c : Thread nD τ) (ms0_1 t) fullShare Y1
        ∗ owns (c : Thread nD τ) (ms0_2 t) fullShare Y2 ∗ owns (c : Thread nD τ) (ms0_3 t) fullShare Y3
        ∗ owns (c : Thread nD τ) (ms0_4 t) fullShare Y4 ∗ owns (c : Thread nD τ) scM fullShare YS
        ∗ (iprop(owns (c : Thread nD τ) (ms0_0 t) fullShare Y0 ∗ owns (c : Thread nD τ) (ms0_1 t) fullShare Y1
              ∗ owns (c : Thread nD τ) (ms0_2 t) fullShare Y2 ∗ owns (c : Thread nD τ) (ms0_3 t) fullShare Y3
              ∗ owns (c : Thread nD τ) (ms0_4 t) fullShare (outOf t Y0 Y1 Y2 Y3 Y4 YS)
              ∗ owns (c : Thread nD τ) scM fullShare (accOf t Y0 Y1 Y2 Y3 YS)) -∗ K ⟨⟩))
      ⊢ wp frame (wpE (defs₀ (F := F)) Variants.none c none) Set.univ (bodyAt0 (F := F) t) K := by
  by_cases h0 : t.val % 32 = 0
  · have h31 : ¬t.val % 32 = 31 := by omega
    have e8 : accOf t Y0 Y1 Y2 Y3 YS = stepAcc (grid0.coords t) Y0 Y1 Y2 Y3 (k0_pay2 (F := F)) := by
      unfold accOf accIn; rw [if_pos h0]
    have e7 : outOf t Y0 Y1 Y2 Y3 Y4 YS = Y4 := by unfold outOf; rw [if_neg h31]
    rw [e7, e8]
    exact run_first c (grid0.coords t) (ms0_0 t) (hs0_0 t) (ms0_1 t) (hs0_1 t) (ms0_2 t) (hs0_2 t) (ms0_3 t) (hs0_3 t)
      (ms0_4 t) (hs0_4 t) scM (Memref.isWhole_whole _) ((hcond1 t).mpr h0) (fun h => h31 ((hcond2 t).mp h))
      Y0 Y1 Y2 Y3 Y4 YS K
  · have e8 : accOf t Y0 Y1 Y2 Y3 YS = stepAcc (grid0.coords t) Y0 Y1 Y2 Y3 YS := by
      unfold accOf accIn; rw [if_neg h0]
    by_cases h31 : t.val % 32 = 31
    · have e7 : outOf t Y0 Y1 Y2 Y3 Y4 YS = stepAcc (grid0.coords t) Y0 Y1 Y2 Y3 YS := by
        unfold outOf; rw [if_pos h31, e8]
      rw [e7, e8]
      exact run_last c (grid0.coords t) (ms0_0 t) (hs0_0 t) (ms0_1 t) (hs0_1 t) (ms0_2 t) (hs0_2 t) (ms0_3 t) (hs0_3 t)
        (ms0_4 t) (hs0_4 t) scM (Memref.isWhole_whole _) (fun h => h0 ((hcond1 t).mp h)) ((hcond2 t).mpr h31)
        Y0 Y1 Y2 Y3 Y4 YS K
    · have e7 : outOf t Y0 Y1 Y2 Y3 Y4 YS = Y4 := by unfold outOf; rw [if_neg h31]
      rw [e7, e8]
      exact run_mid c (grid0.coords t) (ms0_0 t) (hs0_0 t) (ms0_1 t) (hs0_1 t) (ms0_2 t) (hs0_2 t) (ms0_3 t) (hs0_3 t)
        (ms0_4 t) (hs0_4 t) scM (Memref.isWhole_whole _) (fun h => h0 ((hcond1 t).mp h)) (fun h => h31 ((hcond2 t).mp h))
        Y0 Y1 Y2 Y3 Y4 YS K

end Cert.Kernel.Awq

end
-- ==== Proof.KBody.lean ====
/-
  The word-level kernel's frame: under the pipeline every weakly fair execution terminates without a fault and
  the four argument arrays end unchanged. Nothing is said of what the body leaves in any staging buffer or in the
  scratch accumulator: the frame does not read them.

  Four of the five windows are cut at their array's end, so a staging buffer's tail holds words nothing names, and
  the matrix product is opaque in a whole operand: what the accumulator and the output buffer hold cannot be
  named. The proof data therefore relate what the body finds in a buffer to what it leaves there by the relation
  that holds of everything. An input array is never written back, so it ends as it began whatever the buffers held.
-/
import proofs.«414033_j56195352101389_4_alg».proof.Proof.KRun
import proofs.«414033_j56195352101389_4_alg».proof.Proof.Gen.Kernel.Frame
import Idealize.ShloMosaic.Lib.Pipeline.FrameBody

set_option maxRecDepth 16384

noncomputable section

namespace Cert.Kernel.Awq

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Pipeline (RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the one pipeline on core `c`: each array at its contents at launch; of what the body leaves
    in a staging buffer nothing is said (the relation holds of any contents found and left); between points the
    scratch accumulator at some contents and the generator register at some state; full shares, nothing owed. -/
def rdats (c : Dev nD) : RDat τ (Elt F) Unit ℕ (UR sig nD τ) ℕ cfg0 c where
  A w := Gen.V m c (Pipeline.arrRef spec0 w)
  after _ _ _ _ := True
  Φ _ := Pipeline.ΦA spec0 c
  q _ := fullShare
  owed _ := 0

/-- The invariant between points, opened: the scratch accumulator owned at some contents, and the generator
    register at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- What the body is handed at point `t`: the invariant, what the core owes, and each window's current staging
    buffer at contents `Y w`. -/
def bodyPreR (c : Dev nD) (t : Fin cfg0.N) (Y : (w : Fin cfg0.W) → (cfg0.win w).block.Idx → Elt F (cfg0.win w).elt) : sProp 𝕄 :=
  iprop((rdats m c).Φ t.castSucc ∗ (rdats m c).owesAt () t.castSucc
    ∗ owns (c : Thread nD τ) ((cfg0.win 0).stage (cfg0.slots t 0)) fullShare (Y 0)
    ∗ owns (c : Thread nD τ) ((cfg0.win 1).stage (cfg0.slots t 1)) fullShare (Y 1)
    ∗ owns (c : Thread nD τ) ((cfg0.win 2).stage (cfg0.slots t 2)) fullShare (Y 2)
    ∗ owns (c : Thread nD τ) ((cfg0.win 3).stage (cfg0.slots t 3)) fullShare (Y 3)
    ∗ owns (c : Thread nD τ) ((cfg0.win 4).stage (cfg0.slots t 4)) fullShare (Y 4))

/-- What it hands back: the invariant, what the core owes, and each buffer at some contents. -/
def bodyPostR (c : Dev nD) (t : Fin cfg0.N) (Y : (w : Fin cfg0.W) → (cfg0.win w).block.Idx → Elt F (cfg0.win w).elt) : sProp 𝕄 :=
  iprop((rdats m c).Φ t.succ ∗ (rdats m c).owesAt () t.succ
    ∗ (∃ X, ⌜(rdats m c).after 0 t (Y 0) X⌝ ∗ owns (c : Thread nD τ) ((cfg0.win 0).stage (cfg0.slots t 0)) fullShare X)
    ∗ (∃ X, ⌜(rdats m c).after 1 t (Y 1) X⌝ ∗ owns (c : Thread nD τ) ((cfg0.win 1).stage (cfg0.slots t 1)) fullShare X)
    ∗ (∃ X, ⌜(rdats m c).after 2 t (Y 2) X⌝ ∗ owns (c : Thread nD τ) ((cfg0.win 2).stage (cfg0.slots t 2)) fullShare X)
    ∗ (∃ X, ⌜(rdats m c).after 3 t (Y 3) X⌝ ∗ owns (c : Thread nD τ) ((cfg0.win 3).stage (cfg0.slots t 3)) fullShare X)
    ∗ (∃ X, ⌜(rdats m c).after 4 t (Y 4) X⌝ ∗ owns (c : Thread nD τ) ((cfg0.win 4).stage (cfg0.slots t 4)) fullShare X))

/-- The body at a point, from any contents of the buffers and of the scratch: it runs without a fault and every
    buffer comes back at some contents, the scratch too. -/
theorem sound_bodyR (c : Dev nD) (t : Fin cfg0.N) (Y : (w : Fin cfg0.W) → (cfg0.win w).block.Idx → Elt F (cfg0.win w).elt) :
    bodyPreR m c t Y ⊢ wp frame (wpE (defs₀ (F := F)) Variants.none c none) Set.univ (bodyAt0 (F := F) t) (fun _ => bodyPostR m c t Y) := by
  unfold bodyPreR bodyPostR
  rw [show (rdats m c).Φ t.castSucc = Pipeline.ΦA spec0 c from rfl, show (rdats m c).Φ t.succ = Pipeline.ΦA spec0 c from rfl,
    show (rdats m c).owesAt () t.succ = (rdats m c).owesAt () t.castSucc from rfl, PhiA_eq]
  iintro ⟨⟨⟨%YS, HS⟩, Hg⟩, Ho, H0, H1, H2, H3, H4⟩
  iapply (sound_step c t (Y 0) (Y 1) (Y 2) (Y 3) (Y 4) YS _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, HS⟩
  isplitl [HS Hg]
  · isplitl [HS]
    · iexists _; iexact HS
    iexact Hg
  isplitl [Ho]; · iexact Ho
  isplitl [H0]
  · iexists Y 0; isplitr; · ipureintro; trivial
    iexact H0
  isplitl [H1]
  · iexists Y 1; isplitr; · ipureintro; trivial
    iexact H1
  isplitl [H2]
  · iexists Y 2; isplitr; · ipureintro; trivial
    iexact H2
  isplitl [H3]
  · iexists Y 3; isplitr; · ipureintro; trivial
    iexact H3
  · iexists outOf t (Y 0) (Y 1) (Y 2) (Y 3) (Y 4) YS; isplitr; · ipureintro; trivial
    iexact H4

/-- The body obligation of the relational data: nothing of what the buffers may hold is used. -/
theorem body_obligationR (c : Dev nD) : (rdats m c).BodyObligation (defs₀ (F := F)) Variants.none () Set.univ := fun t Y _ => by
  rw [bigSep_W0, bigSep_W0]
  exact sound_bodyR m c t Y

theorem shareR_eq (c : Dev nD) (w : Fin cfg0.W) : (rdats m c).share w = fullShare := by
  unfold RDat.share; split <;> rfl

/-- The run: every weakly fair execution terminates, every array of the pipeline at some contents it may hold after
    every write-back, every other unscoped buffer as at launch. -/
theorem run_mainR : θ_run (defs (F := F)) (onTc (τ := τ) (main (F := F))) (s₀ m ρ) (RDat.FramePost cfg0 (rdats m) (Gen.V m)) :=
  RDat.θ_run_frame cfgs (0 : Fin 1) Gen.launch0 defs₀ Variants.none (rdats m) m ρ main
    (hbody := body_obligationR m) (hshare := shareR_eq m) (howed := fun _ _ => rfl) (V := Gen.V m)
    (hmain := Gen.hmain m Variants.none) (hA := fun _ _ => rfl) (hΦ := fun _ _ => rfl)

theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(RDat.FramePost.arr_in h c 0 rfl).trans (Gen.V_main_arg0 m c),
      (RDat.FramePost.arr_in h c 1 rfl).trans (Gen.V_main_arg1 m c),
      (RDat.FramePost.arr_in h c 2 rfl).trans (Gen.V_main_arg2 m c),
      (RDat.FramePost.arr_in h c 3 rfl).trans (Gen.V_main_arg3 m c)⟩) (run_mainR m ρ)

end Cert.Kernel.Awq

end
-- ==== Proof.KIStep.lean ====
/-
  One grid point of the kernel as a pure function, at any float instance.

  At point (mi, n, g) the body reads the 256×128 block of `x`, the 128×128 block of packed weights, row `g` of the
  32×128 block of packed zero points and row `g` of the 32×1024 block of scales; it unpacks the eight fields of every
  word side by side (128 packed columns become 1024 columns), subtracts the zero points, multiplies by the scales and
  adds the 256×1024 product of the `x` block with that 128×1024 matrix to the accumulator. `stepAcc` is that update of
  the accumulator, written over the body's own named payloads. The accumulator starts from zeros at g = 0 (`accIn`),
  and the output block receives the accumulator at g = 31 and is left alone elsewhere (`outOf`).
-/
import proofs.«414033_j56195352101389_4_alg».proof.Proof.Gen.KernelIdeal.Skeleton
import proofs.«414033_j56195352101389_4_alg».proof.Proof.Gen.KernelIdeal.Points
import Idealize.ShloMosaic.Lib.Pipeline.FrameBody

noncomputable section

namespace Cert.KernelIdeal.Awq

open Cert.KernelIdeal Cert.KernelIdeal.Gen
open Idealize.ShloMosaic Idealize.ShloMosaic.TcCoe
open Idealize.SL Idealize.SL.Sem

variable {F : FTy → Type} [FloatOps F]

/-- Row `g` of the zero-point block, as the body loads it. -/
abbrev qzRow (i : grid0.Coords) (Y3 : Vec F S32x128 .i32) : Vec F S1x128 .i32 :=
  View.ld Y3 (Rect.unit (s := S32x128) (k0_off1 i) S1x128.size (Facts₀.k0_off1_inb i))

/-- Row `g` of the scale block, as the body loads it. -/
abbrev scRow (i : grid0.Coords) (Y2 : Vec F S32x1024 .f32) : Vec F S1x1024 .f32 :=
  View.ld Y2 (Rect.unit (s := S32x1024) (k0_off2 i) S1x1024.size (Facts₀.k0_off2_inb i))

/-- The accumulator after the point's update: `acc + x_block · dequant(weights block)`. -/
def stepAcc (i : grid0.Coords) (Y0 : Vec F S256x128 .f32) (Y1 : Vec F S128x128 .i32) (Y2 : Vec F S32x1024 .f32)
    (Y3 : Vec F S32x128 .i32) (acc : Vec F S256x1024 .f32) : Vec F S256x1024 .f32 :=
  k0_pay1 (F := F)
    (k0_pay11 (F := F) (k0_pay3 (F := F) Y1) (k0_pay4 (F := F) Y1) (k0_pay5 (F := F) Y1) (k0_pay6 (F := F) Y1)
      (k0_pay7 (F := F) Y1) (k0_pay8 (F := F) Y1) (k0_pay9 (F := F) Y1) (k0_pay10 (F := F) Y1))
    (k0_pay12 (F := F) (qzRow i Y3)) (k0_pay13 (F := F) (qzRow i Y3)) (k0_pay14 (F := F) (qzRow i Y3))
    (k0_pay15 (F := F) (qzRow i Y3)) (k0_pay16 (F := F) (qzRow i Y3)) (k0_pay17 (F := F) (qzRow i Y3))
    (k0_pay18 (F := F) (qzRow i Y3)) (k0_pay19 (F := F) (qzRow i Y3)) 15#32 (scRow i Y2) Y0 acc

/-- What the update starts from: zeros at a group's first point, else what the point before left. -/
def accIn (t : Fin cfg0.N) (YS : Vec F S256x1024 .f32) : Vec F S256x1024 .f32 :=
  if t.val % 32 = 0 then k0_pay2 (F := F) else YS

/-- The scratch accumulator after point `t`. -/
def accOf (t : Fin cfg0.N) (Y0 : Vec F S256x128 .f32) (Y1 : Vec F S128x128 .i32) (Y2 : Vec F S32x1024 .f32)
    (Y3 : Vec F S32x128 .i32) (YS : Vec F S256x1024 .f32) : Vec F S256x1024 .f32 :=
  stepAcc (grid0.coords t) Y0 Y1 Y2 Y3 (accIn t YS)

/-- The output's staging buffer after point `t`: the accumulator at a group's last point, else untouched. -/
def outOf (t : Fin cfg0.N) (Y0 : Vec F S256x128 .f32) (Y1 : Vec F S128x128 .i32) (Y2 : Vec F S32x1024 .f32)
    (Y3 : Vec F S32x128 .i32) (Y4 YS : Vec F S256x1024 .f32) : Vec F S256x1024 .f32 :=
  if t.val % 32 = 31 then accOf t Y0 Y1 Y2 Y3 YS else Y4

/-- The point's staging memrefs as the pipeline passes them, and the scratch. -/
abbrev ms0_0 (t : Fin cfg0.N) : Memref sig .tc .vmem S256x128 .f32 := win0_0.stage (cfg0.slots t 0)
abbrev hs0_0 (t : Fin cfg0.N) : (ms0_0 t).IsWhole := Facts₀.hstage0_0 ((cfg0.slots t 0).cast Facts₀.nbuf0_0)
abbrev ms0_1 (t : Fin cfg0.N) : Memref sig .tc .vmem S128x128 .i32 := win0_1.stage (cfg0.slots t 1)
abbrev hs0_1 (t : Fin cfg0.N) : (ms0_1 t).IsWhole := Facts₀.hstage0_1 ((cfg0.slots t 1).cast Facts₀.nbuf0_1)
abbrev ms0_2 (t : Fin cfg0.N) : Memref sig .tc .vmem S32x1024 .f32 := win0_2.stage (cfg0.slots t 2)
abbrev hs0_2 (t : Fin cfg0.N) : (ms0_2 t).IsWhole := Facts₀.hstage0_2 ((cfg0.slots t 2).cast Facts₀.nbuf0_2)
abbrev ms0_3 (t : Fin cfg0.N) : Memref sig .tc .vmem S32x128 .i32 := win0_3.stage (cfg0.slots t 3)
abbrev hs0_3 (t : Fin cfg0.N) : (ms0_3 t).IsWhole := Facts₀.hstage0_3 ((cfg0.slots t 3).cast Facts₀.nbuf0_3)
abbrev ms0_4 (t : Fin cfg0.N) : Memref sig .tc .vmem S256x1024 .f32 := win0_4.stage (cfg0.slots t 4)
abbrev hs0_4 (t : Fin cfg0.N) : (ms0_4 t).IsWhole := Facts₀.hstage0_4 ((cfg0.slots t 4).cast Facts₀.nbuf0_4)
abbrev scM : Memref sig .tc .vmem S256x1024 .f32 := Memref.whole cc0_scratch0

end Cert.KernelIdeal.Awq

end
-- ==== Proof.Spec.lean ====
/-
  The mathematics both programs compute, stated once over the extended reals and away from either program.

  Eight 4-bit fields are packed in each 32-bit word; field `e` of a word is the word shifted right
  (arithmetically) by `shiftOf e` and masked with 15, the shifts being 0, 16, 4, 20, 8, 24, 12, 28. Column `J`
  of the dequantized weight matrix reads field `J % 8` of packed column `J / 8`; rows come in groups of 128 that share
  one zero point and one scale: `W k J = (field(qweight[k, J/8]) - field(qzeros[k/128, J/8])) * scales[k/128, J]`.
  The result is the matrix product `G i J = Σ k, x[i, k] * W k J` over all 4096 rows `k`.

  The sum over the 4096 rows is also the sum, group by group, of the 32 sums over a group's 128 rows
  (`partSum_all`), and the running total after `n` groups grows by the next group's sum (`partSum_succ`):
  addition of extended reals is commutative and associative, so no finiteness is needed for either.
-/
import Idealize.ShloMosaic.PureOps.Ideal
import Idealize.ShloMosaic.Lib.ValueIdx

noncomputable section

open scoped BigOperators

namespace Cert.AwqSpec

open Idealize.ShloMosaic Idealize.ShloMosaic.ValueIdx

/-- The shift that brings field `e` of a packed word to its low four bits. -/
def shiftOf : Fin 8 → BitVec 32 := fun
  | 0 => 0#32 | 1 => 16#32 | 2 => 4#32 | 3 => 20#32 | 4 => 8#32 | 5 => 24#32 | 6 => 12#32 | 7 => 28#32

theorem shiftOf_lt (e : Fin 8) : (shiftOf e).toNat < 32 := by
  fin_cases e <;> decide

/-- Field `e` of a packed word: an integer in 0‥15, as a word. -/
def nib (e : Fin 8) (x : BitVec 32) : BitVec 32 := (x.sshiftRight' (shiftOf e)) &&& 15#32

/-- The same as an extended real. -/
def nibR (e : Fin 8) (x : BitVec 32) : EReal := (((nib e x).toInt : ℝ) : EReal)

/-- The dequantized weight at row `k`, column `J`. -/
def W (qw : (⟨2, ![4096, 1376]⟩ : Shape).Idx → BitVec 32) (sc : (⟨2, ![32, 11008]⟩ : Shape).Idx → EReal)
    (qz : (⟨2, ![32, 1376]⟩ : Shape).Idx → BitVec 32) (k : Fin 4096) (J : Fin 11008) : EReal :=
  (nibR ⟨J.val % 8, Nat.mod_lt _ (by decide)⟩ (qw (ix2 k (⟨J.val / 8, by have := J.isLt; omega⟩ : Fin 1376)))
    - nibR ⟨J.val % 8, Nat.mod_lt _ (by decide)⟩
        (qz (ix2 (⟨k.val / 128, by have := k.isLt; omega⟩ : Fin 32) (⟨J.val / 8, by have := J.isLt; omega⟩ : Fin 1376))))
  * sc (ix2 (⟨k.val / 128, by have := k.isLt; omega⟩ : Fin 32) J)

/-- One term of the product's sum at output row `i`, column `J`. -/
def term (x : (⟨2, ![4096, 4096]⟩ : Shape).Idx → EReal) (qw : (⟨2, ![4096, 1376]⟩ : Shape).Idx → BitVec 32)
    (sc : (⟨2, ![32, 11008]⟩ : Shape).Idx → EReal) (qz : (⟨2, ![32, 1376]⟩ : Shape).Idx → BitVec 32)
    (i : Fin 4096) (J : Fin 11008) (k : Fin 4096) : EReal :=
  x (ix2 i k) * W qw sc qz k J

/-- The whole result: `x` times the dequantized weights. -/
def G (x : (⟨2, ![4096, 4096]⟩ : Shape).Idx → EReal) (qw : (⟨2, ![4096, 1376]⟩ : Shape).Idx → BitVec 32)
    (sc : (⟨2, ![32, 11008]⟩ : Shape).Idx → EReal) (qz : (⟨2, ![32, 1376]⟩ : Shape).Idx → BitVec 32) :
    (⟨2, ![4096, 11008]⟩ : Shape).Idx → EReal :=
  fun j => ∑ k : Fin 4096, term x qw sc qz (j 0) (j 1) k

theorem G_apply (x qw sc qz) (i : Fin 4096) (J : Fin 11008) :
    G x qw sc qz (ix2 i J) = ∑ k : Fin 4096, term x qw sc qz i J k := rfl

/-! ## The sum by groups of 128 rows -/

/-- The sum of `h` over group `g`'s 128 rows (zero past the last group). -/
def grpSum (h : Fin 4096 → EReal) (g : ℕ) : EReal :=
  if hg : g < 32 then ∑ r : Fin 128, h ⟨g * 128 + r.val, by have := r.isLt; omega⟩ else 0

/-- The running total after the first `n` groups. -/
def partSum (h : Fin 4096 → EReal) (n : ℕ) : EReal := ∑ g ∈ Finset.range n, grpSum h g

theorem partSum_zero (h : Fin 4096 → EReal) : partSum h 0 = 0 := Finset.sum_range_zero _

theorem partSum_succ (h : Fin 4096 → EReal) (n : ℕ) : partSum h (n + 1) = partSum h n + grpSum h n :=
  Finset.sum_range_succ _ _

theorem partSum_one (h : Fin 4096 → EReal) : partSum h 1 = grpSum h 0 := by
  rw [partSum_succ, partSum_zero, zero_add]

theorem grpSum_of_lt (h : Fin 4096 → EReal) {g : ℕ} (hg : g < 32) :
    grpSum h g = ∑ r : Fin 128, h ⟨g * 128 + r.val, by have := r.isLt; omega⟩ := dif_pos hg

/-- All 32 groups together are all 4096 rows. -/
theorem partSum_all (h : Fin 4096 → EReal) : partSum h 32 = ∑ k : Fin 4096, h k := by
  unfold partSum
  rw [Finset.sum_range (fun g => grpSum h g)]
  have e : ∀ g : Fin 32, grpSum h g.val = ∑ r : Fin 128, h (finProdFinEquiv (g, r)) := by
    intro g
    rw [grpSum_of_lt h g.isLt]
    refine Finset.sum_congr rfl fun r _ => congrArg h (Fin.ext ?_)
    show g.val * 128 + r.val = r.val + 128 * g.val
    omega
  simp only [e]
  have hp := Fintype.sum_prod_type' (fun (g : Fin 32) (r : Fin 128) => h (finProdFinEquiv (g, r)))
  exact hp.symm.trans (Equiv.sum_comp (finProdFinEquiv (m := 32) (n := 128)) h)

end Cert.AwqSpec

end
-- ==== Proof.KIDat.lean ====
/-
  The proof data of the idealized kernel's pipeline.

  The result array is claimed to end at `Gout`: x times the dequantized weights (`Cert.AwqSpec.G` of the argument
  arrays). Point t = (mi·11 + n)·32 + g works on output block (mi, n) and row group g. The invariant between points
  says what the scratch accumulator holds ON THE COLUMNS INSIDE THE ARRAY (column n·1024 + q < 11008): after point t,
  entry (p, q) is the running total of the product's terms over the first g + 1 groups of rows, for output row
  mi·256 + p and column n·1024 + q (`Agree`). Of the columns of a block that overhang the array's end nothing is said:
  what the staging buffers hold there is not determined by the arrays, and no kept result depends on it, because
  column q of the update reads column q of the scales and of the unpacked weights only.

  After the body each input's staging buffer holds its block (filled out with zeros past the array's end, which the
  obligation does not state), and at a group's last point the output's buffer holds the block of `Gout`.
-/
import proofs.«414033_j56195352101389_4_alg».proof.Proof.KIStep
import proofs.«414033_j56195352101389_4_alg».proof.Proof.Spec
import proofs.«414033_j56195352101389_4_alg».proof.Proof.Gen.KernelIdeal.Frame
import Idealize.ShloMosaic.Lib.ValueIdx

set_option maxRecDepth 16384

noncomputable section

open scoped BigOperators

namespace Cert.KernelIdeal.Awq

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.AwqSpec Idealize.ShloMosaic.ValueIdx

local notation "𝕄" => MT nD τ sig Unit (Elt Ideal) ℕ (UR sig nD τ) ℕ

variable (m : (ℓ : Loc nD τ sig) → Buf (Elt Ideal) ℓ)

/-- The grid has 5632 points (restated at the configuration's count). -/
theorem N_eq : cfg0.N = 5632 := N_0

/-- The coordinates of point t = (mi·11 + n)·32 + g, in closed form. -/
theorem coords_closed : ∀ t : Fin cfg0.N, (grid0.coords t 0).val = t.val / 352 ∧ (grid0.coords t 1).val = t.val / 32 % 11
    ∧ (grid0.coords t 2).val = t.val % 32 :=
  (by decide +kernel : ∀ t : Fin grid0.N, (grid0.coords t 0).val = t.val / 352 ∧ (grid0.coords t 1).val = t.val / 32 % 11
    ∧ (grid0.coords t 2).val = t.val % 32)

/-- The argument arrays on core `c`, at their literal shapes. -/
abbrev xA (c : Dev nD) : S4096x4096.Idx → EReal := m ((c.tc : Thread nD τ).loc main_arg0)
abbrev qwA (c : Dev nD) : S4096x1376.Idx → BitVec 32 := m ((c.tc : Thread nD τ).loc main_arg1)
abbrev scA (c : Dev nD) : S32x11008.Idx → EReal := m ((c.tc : Thread nD τ).loc main_arg2)
abbrev qzA (c : Dev nD) : S32x1376.Idx → BitVec 32 := m ((c.tc : Thread nD τ).loc main_arg3)

/-- What the result array ends holding: x times the dequantized weights. -/
def Gout (c : Dev nD) : Buf (Elt Ideal) ((c.tc : Thread nD τ).loc main_v0) :=
  G (xA m c) (qwA m c) (scA m c) (qzA m c)

/-- The product's terms for entry (p, q) of the output block of point `t`, a column inside the array. -/
def hterm (c : Dev nD) (t : Fin cfg0.N) (p : Fin 256) (q : Fin 1024) (hq : t.val / 32 % 11 * 1024 + q.val < 11008) : Fin 4096 → EReal :=
  term (xA m c) (qwA m c) (scA m c) (qzA m c)
    ⟨t.val / 352 * 256 + p.val, by have h := lt_of_lt_of_eq t.isLt N_eq; have := p.isLt; omega⟩
    ⟨t.val / 32 % 11 * 1024 + q.val, hq⟩

/-- The scratch accumulator after point `t` agrees, on the columns inside the array, with the running total over the
    first g + 1 groups of rows. -/
def Agree (c : Dev nD) (t : Fin cfg0.N) (XS : Vec Ideal S256x1024 .f32) : Prop :=
  ∀ (p : Fin 256) (q : Fin 1024) (hq : t.val / 32 % 11 * 1024 + q.val < 11008),
    XS (ix2 p q) = partSum (hterm m c t p q hq) (t.val % 32 + 1)

/-- The invariant before position `n`: before the first point the scoped rest at anything; afterwards the scratch at
    SOME contents that agree with the running total on the columns inside the array, and the generator register at
    some state. -/
def PhiS (c : Dev nD) : (n : ℕ) → n ≤ cfg0.N → sProp 𝕄
  | 0, _ => Pipeline.ΦA spec0 c
  | n + 1, hn => iprop(iprop(∃ XS, owns (c : Thread nD τ) scM fullShare XS ∗ ⌜Agree m c ⟨n, hn⟩ XS⌝) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(∃ XS, owns (c : Thread nD τ) scM fullShare XS ∗ ⌜Agree m c ⟨n, hn⟩ XS⌝) ∗ (∃ r, prngReg c r)) := rfl

theorem PhiS_pos (c : Dev nD) (n : ℕ) (h : n ≤ cfg0.N) (hz : n ≠ 0) :
    PhiS m c n h = iprop(iprop(∃ XS, owns (c : Thread nD τ) scM fullShare XS ∗ ⌜Agree m c ⟨n - 1, by omega⟩ XS⌝) ∗ (∃ r, prngReg c r)) := by
  cases n with
  | zero => exact absurd rfl hz
  | succ n => rfl

/-- The proof data of the one pipeline on core `c`. -/
def dats (_ : Fin 1) (c : Dev nD) : Dat τ (Elt Ideal) Unit ℕ (UR sig nD τ) ℕ cfg0 c where
  A w := Gen.V m c (Pipeline.arrRef spec0 w)
  after w t := match w with
    | ⟨0, _⟩ => Gen.iblk m c 0 t
    | ⟨1, _⟩ => win0_1.fill (grid0.coords t) (fun _ => (0#32 : BitVec 32)) (Gen.iblk m c 1 t)
    | ⟨2, _⟩ => win0_2.fill (grid0.coords t) (fun _ => (0 : EReal)) (Gen.iblk m c 2 t)
    | ⟨3, _⟩ => win0_3.fill (grid0.coords t) (fun _ => (0#32 : BitVec 32)) (Gen.iblk m c 3 t)
    | ⟨4, _⟩ => win0_4.fill (grid0.coords t) (fun _ => (0 : EReal)) ((win0_4.blk t).view.read (Elt Ideal) (Gout m c))
  Φ t := PhiS m c t.val (Nat.le_of_lt_succ t.isLt)
  q _ := fullShare
  owed _ := 0

theorem A_eq (c : Dev nD) (w : Fin cfg0.W) : (dats m 0 c).A w = Gen.V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = Gen.iblk m c 0 t := by dsimp only [dats]
theorem after0_1 (c : Dev nD) (t : Fin cfg0.N) :
    (dats m 0 c).after 1 t = win0_1.fill (grid0.coords t) (fun _ => (0#32 : BitVec 32)) (Gen.iblk m c 1 t) := by dsimp only [dats]
theorem after0_2 (c : Dev nD) (t : Fin cfg0.N) :
    (dats m 0 c).after 2 t = win0_2.fill (grid0.coords t) (fun _ => (0 : EReal)) (Gen.iblk m c 2 t) := by dsimp only [dats]
theorem after0_3 (c : Dev nD) (t : Fin cfg0.N) :
    (dats m 0 c).after 3 t = win0_3.fill (grid0.coords t) (fun _ => (0#32 : BitVec 32)) (Gen.iblk m c 3 t) := by dsimp only [dats]
theorem after0_4 (c : Dev nD) (t : Fin cfg0.N) :
    (dats m 0 c).after 4 t = win0_4.fill (grid0.coords t) (fun _ => (0 : EReal)) ((win0_4.blk t).view.read (Elt Ideal) (Gout m c)) := by
  dsimp only [dats]

end Cert.KernelIdeal.Awq

end
-- ==== Proof.KIRun.lean ====
/-
  The kernel body at one grid point, as a triple at any float instance: from the five staging buffers and the
  scratch accumulator at any contents, the body runs without a fault and leaves the four input buffers as they were,
  the scratch at the updated accumulator (`accOf`) and the output buffer at the accumulator at a group's last
  point, untouched elsewhere (`outOf`).

  The body branches twice on the third grid coordinate g: it zeroes the accumulator when g = 0, and it copies the
  accumulator into the output block when g = 31. So a point is of one of three kinds (g = 0, 0 < g < 31, g = 31),
  and on each kind the body is a straight line of loads and stores through whole buffers. Every store covers its
  whole buffer, so what a buffer holds afterwards is the last value stored into it, and a load that follows a store
  reads that value: at g = 0 the update starts from zeros whatever the scratch held, and at g = 31 the output block
  receives the accumulator AFTER the point's update.
-/
import proofs.«414033_j56195352101389_4_alg».proof.Proof.KIStep
import proofs.«414033_j56195352101389_4_alg».proof.Proof.Gen.KernelIdeal.Launch
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Awq

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The two tests on the third coordinate -/

/-- The first conditional's test, as the body computes it from the coordinates: the third coordinate is zero. -/
abbrev cond1 (i : grid0.Coords) : Prop :=
  (Scalar.cmpi .ne (Scalar.extui (Scalar.cmpi .eq (BitVec.ofNat 32 (i 2).val) 0#32)) 0#32) = 1#1
/-- The second conditional's test: the third coordinate is 31. -/
abbrev cond2 (i : grid0.Coords) : Prop := k0_cond2 i = 1#1

/-- Point `t` has third coordinate `t % 32`: the first test holds exactly at the points ≡ 0 (mod 32), -/
theorem hcond1 : ∀ t : Fin cfg0.N, cond1 (grid0.coords t) ↔ t.val % 32 = 0 :=
  (by decide +kernel : ∀ t : Fin grid0.N, cond1 (grid0.coords t) ↔ t.val % 32 = 0)
/-- and the second exactly at the points ≡ 31 (mod 32). Both are decided over the 5632 points. -/
theorem hcond2 : ∀ t : Fin cfg0.N, cond2 (grid0.coords t) ↔ t.val % 32 = 31 :=
  (by decide +kernel : ∀ t : Fin grid0.N, cond2 (grid0.coords t) ↔ t.val % 32 = 31)

/-- The zero offsets of a load or store through a whole buffer, however they are spelt. -/
private theorem hz : (![0, 0] : Fin 2 → Nat) = fun _ => 0 := funext fun a => by fin_cases a <;> rfl

/-! ## The body on any whole buffers, kind by kind

Each statement is over any six whole buffers and any coordinates at which the two tests are decided as the kind says;
the buffers' contents are named by what they read (`Y0 … Y4`, `YS`), and every value the body computes is a term over
those. -/

set_option maxHeartbeats 1000000 in
/-- A group's FIRST point (the first test holds, the second does not): the scratch is overwritten with zeros, the
    update reads the zeros back, and the scratch ends at `stepAcc` of zeros — two covering stores, of which the later
    one stays. The output buffer is not touched. -/
theorem run_first (c : Dev nD) (i : grid0.Coords)
    (arg3 : Memref sig .tc .vmem S256x128 .f32) (harg3 : arg3.IsWhole)
    (arg4 : Memref sig .tc .vmem S128x128 .i32) (harg4 : arg4.IsWhole)
    (arg5 : Memref sig .tc .vmem S32x1024 .f32) (harg5 : arg5.IsWhole)
    (arg6 : Memref sig .tc .vmem S32x128 .i32) (harg6 : arg6.IsWhole)
    (arg7 : Memref sig .tc .vmem S256x1024 .f32) (harg7 : arg7.IsWhole)
    (arg8 : Memref sig .tc .vmem S256x1024 .f32) (harg8 : arg8.IsWhole)
    (hc1 : cond1 i) (hc2 : ¬cond2 i)
    (Y0 : Vec F S256x128 .f32) (Y1 : Vec F S128x128 .i32)
    (Y2 : Vec F S32x1024 .f32) (Y3 : Vec F S32x128 .i32) (Y4 YS : Vec F S256x1024 .f32) (K : PUnit → sProp 𝕄) :
    iprop(owns (c : Thread nD τ) arg3 fullShare Y0 ∗ owns (c : Thread nD τ) arg4 fullShare Y1
        ∗ owns (c : Thread nD τ) arg5 fullShare Y2 ∗ owns (c : Thread nD τ) arg6 fullShare Y3
        ∗ owns (c : Thread nD τ) arg7 fullShare Y4 ∗ owns (c : Thread nD τ) arg8 fullShare YS
        ∗ (iprop(owns (c : Thread nD τ) arg3 fullShare Y0 ∗ owns (c : Thread nD τ) arg4 fullShare Y1
              ∗ owns (c : Thread nD τ) arg5 fullShare Y2 ∗ owns (c : Thread nD τ) arg6 fullShare Y3
              ∗ owns (c : Thread nD τ) arg7 fullShare (Y4)
              ∗ owns (c : Thread nD τ) arg8 fullShare (stepAcc i Y0 Y1 Y2 Y3 (k0_pay2 (F := F)))) -∗ K ⟨⟩))
      ⊢ wp frame (wpE (defs₀ (F := F)) Variants.none c none) Set.univ
          (cc0__awq_matmul_kernel i arg3 harg3 arg4 harg4 arg5 harg5 arg6 harg6 arg7 harg7 arg8 harg8) K := by
  simp only [cc0__awq_matmul_kernel_eq_skeleton]; unfold cc0__awq_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg3.eq_unread hf0; obtain rfl := harg4.eq_unread hf1
  obtain rfl := harg5.eq_unread hf2; obtain rfl := harg6.eq_unread hf3
  obtain rfl := harg7.eq_unread hf4; obtain rfl := harg8.eq_unread hfs
  sl_exec (disch := first | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  iexists _; isplitr
  swap; · iexact HS
  ipureintro
  sl_unfold_run_names
  rw [View.read_writes_eq_canon _ _ _ (fun y => ⟨_, List.Mem.head _, View.mem_set_unit_zero hz inb_S256x1024_S256x1024_0_0 y⟩)]
  rw [View.canon_cons_unit_zero (S := S256x1024) hz]
  simp only [View.readAt_eq_ld, harg3.read_unread, harg4.read_unread, harg5.read_unread, harg6.read_unread,
    harg8.read_unread, View.ld_unit_zero (S := S256x128) hz, View.ld_unit_zero (S := S128x128) hz,
    View.ld_unit_zero (S := S256x1024) hz, View.readCov_unit_zero (S := S256x1024) _ hz]
  rfl

set_option maxHeartbeats 1000000 in
/-- A point strictly INSIDE a group (neither test holds): one covering store into the scratch, of `stepAcc` of what
    the scratch held. The output buffer is not touched. -/
theorem run_mid (c : Dev nD) (i : grid0.Coords)
    (arg3 : Memref sig .tc .vmem S256x128 .f32) (harg3 : arg3.IsWhole)
    (arg4 : Memref sig .tc .vmem S128x128 .i32) (harg4 : arg4.IsWhole)
    (arg5 : Memref sig .tc .vmem S32x1024 .f32) (harg5 : arg5.IsWhole)
    (arg6 : Memref sig .tc .vmem S32x128 .i32) (harg6 : arg6.IsWhole)
    (arg7 : Memref sig .tc .vmem S256x1024 .f32) (harg7 : arg7.IsWhole)
    (arg8 : Memref sig .tc .vmem S256x1024 .f32) (harg8 : arg8.IsWhole)
    (hc1 : ¬cond1 i) (hc2 : ¬cond2 i)
    (Y0 : Vec F S256x128 .f32) (Y1 : Vec F S128x128 .i32)
    (Y2 : Vec F S32x1024 .f32) (Y3 : Vec F S32x128 .i32) (Y4 YS : Vec F S256x1024 .f32) (K : PUnit → sProp 𝕄) :
    iprop(owns (c : Thread nD τ) arg3 fullShare Y0 ∗ owns (c : Thread nD τ) arg4 fullShare Y1
        ∗ owns (c : Thread nD τ) arg5 fullShare Y2 ∗ owns (c : Thread nD τ) arg6 fullShare Y3
        ∗ owns (c : Thread nD τ) arg7 fullShare Y4 ∗ owns (c : Thread nD τ) arg8 fullShare YS
        ∗ (iprop(owns (c : Thread nD τ) arg3 fullShare Y0 ∗ owns (c : Thread nD τ) arg4 fullShare Y1
              ∗ owns (c : Thread nD τ) arg5 fullShare Y2 ∗ owns (c : Thread nD τ) arg6 fullShare Y3
              ∗ owns (c : Thread nD τ) arg7 fullShare (Y4)
              ∗ owns (c : Thread nD τ) arg8 fullShare (stepAcc i Y0 Y1 Y2 Y3 YS)) -∗ K ⟨⟩))
      ⊢ wp frame (wpE (defs₀ (F := F)) Variants.none c none) Set.univ
          (cc0__awq_matmul_kernel i arg3 harg3 arg4 harg4 arg5 harg5 arg6 harg6 arg7 harg7 arg8 harg8) K := by
  simp only [cc0__awq_matmul_kernel_eq_skeleton]; unfold cc0__awq_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg3.eq_unread hf0; obtain rfl := harg4.eq_unread hf1
  obtain rfl := harg5.eq_unread hf2; obtain rfl := harg6.eq_unread hf3
  obtain rfl := harg7.eq_unread hf4; obtain rfl := harg8.eq_unread hfs
  sl_exec (disch := first | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  iexists _; isplitr
  swap; · iexact HS
  ipureintro
  sl_unfold_run_names
  rw [View.read_writes_eq_canon _ _ _ (fun y => ⟨_, List.Mem.head _, View.mem_set_unit_zero hz inb_S256x1024_S256x1024_0_0 y⟩)]
  rw [View.canon_unit_zero hz]
  simp only [View.readAt_eq_ld, harg3.read_unread, harg4.read_unread, harg5.read_unread, harg6.read_unread,
    harg8.read_unread, View.ld_unit_zero (S := S256x128) hz, View.ld_unit_zero (S := S128x128) hz,
    View.ld_unit_zero (S := S256x1024) hz, View.readCov_unit_zero (S := S256x1024) _ hz]
  rfl

set_option maxHeartbeats 1000000 in
/-- A group's LAST point (the second test holds, the first does not): the scratch is updated as inside a group, then
    read back and stored whole into the output buffer — so both end at `stepAcc` of what the scratch held. -/
theorem run_last (c : Dev nD) (i : grid0.Coords)
    (arg3 : Memref sig .tc .vmem S256x128 .f32) (harg3 : arg3.IsWhole)
    (arg4 : Memref sig .tc .vmem S128x128 .i32) (harg4 : arg4.IsWhole)
    (arg5 : Memref sig .tc .vmem S32x1024 .f32) (harg5 : arg5.IsWhole)
    (arg6 : Memref sig .tc .vmem S32x128 .i32) (harg6 : arg6.IsWhole)
    (arg7 : Memref sig .tc .vmem S256x1024 .f32) (harg7 : arg7.IsWhole)
    (arg8 : Memref sig .tc .vmem S256x1024 .f32) (harg8 : arg8.IsWhole)
    (hc1 : ¬cond1 i) (hc2 : cond2 i)
    (Y0 : Vec F S256x128 .f32) (Y1 : Vec F S128x128 .i32)
    (Y2 : Vec F S32x1024 .f32) (Y3 : Vec F S32x128 .i32) (Y4 YS : Vec F S256x1024 .f32) (K : PUnit → sProp 𝕄) :
    iprop(owns (c : Thread nD τ) arg3 fullShare Y0 ∗ owns (c : Thread nD τ) arg4 fullShare Y1
        ∗ owns (c : Thread nD τ) arg5 fullShare Y2 ∗ owns (c : Thread nD τ) arg6 fullShare Y3
        ∗ owns (c : Thread nD τ) arg7 fullShare Y4 ∗ owns (c : Thread nD τ) arg8 fullShare YS
        ∗ (iprop(owns (c : Thread nD τ) arg3 fullShare Y0 ∗ owns (c : Thread nD τ) arg4 fullShare Y1
              ∗ owns (c : Thread nD τ) arg5 fullShare Y2 ∗ owns (c : Thread nD τ) arg6 fullShare Y3
              ∗ owns (c : Thread nD τ) arg7 fullShare (stepAcc i Y0 Y1 Y2 Y3 YS)
              ∗ owns (c : Thread nD τ) arg8 fullShare (stepAcc i Y0 Y1 Y2 Y3 YS)) -∗ K ⟨⟩))
      ⊢ wp frame (wpE (defs₀ (F := F)) Variants.none c none) Set.univ
          (cc0__awq_matmul_kernel i arg3 harg3 arg4 harg4 arg5 harg5 arg6 harg6 arg7 harg7 arg8 harg8) K := by
  simp only [cc0__awq_matmul_kernel_eq_skeleton]; unfold cc0__awq_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg3.eq_unread hf0; obtain rfl := harg4.eq_unread hf1
  obtain rfl := harg5.eq_unread hf2; obtain rfl := harg6.eq_unread hf3
  obtain rfl := harg7.eq_unread hf4; obtain rfl := harg8.eq_unread hfs
  sl_exec (disch := first | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro
    sl_unfold_run_names
    rw [View.read_writes_eq_canon _ _ _ (fun y => ⟨_, List.Mem.head _, View.mem_set_unit_zero hz inb_S256x1024_S256x1024_0_0 y⟩)]
    rw [View.canon_unit_zero hz]
    simp only [View.readAt_eq_ld, harg3.read_unread, harg4.read_unread, harg5.read_unread, harg6.read_unread,
    harg8.read_unread, View.ld_unit_zero (S := S256x128) hz, View.ld_unit_zero (S := S128x128) hz,
    View.ld_unit_zero (S := S256x1024) hz, View.readCov_unit_zero (S := S256x1024) _ hz]
    rfl
  iexists _; isplitr
  swap; · iexact HS
  ipureintro
  sl_unfold_run_names
  rw [View.read_writes_eq_canon _ _ _ (fun y => ⟨_, List.Mem.head _, View.mem_set_unit_zero hz inb_S256x1024_S256x1024_0_0 y⟩)]
  rw [View.canon_unit_zero hz]
  simp only [View.readAt_eq_ld, harg3.read_unread, harg4.read_unread, harg5.read_unread, harg6.read_unread,
    harg8.read_unread, View.ld_unit_zero (S := S256x128) hz, View.ld_unit_zero (S := S128x128) hz,
    View.ld_unit_zero (S := S256x1024) hz, View.readCov_unit_zero (S := S256x1024) _ hz]
  rfl

/-! ## The body at a grid point -/

theorem sound_step (c : Dev nD) (t : Fin cfg0.N) (Y0 : Vec F S256x128 .f32) (Y1 : Vec F S128x128 .i32)
    (Y2 : Vec F S32x1024 .f32) (Y3 : Vec F S32x128 .i32) (Y4 YS : Vec F S256x1024 .f32) (K : PUnit → sProp 𝕄) :
    iprop(owns (c : Thread nD τ) (ms0_0 t) fullShare Y0 ∗ owns (c : Thread nD τ) (ms0_1 t) fullShare Y1
        ∗ owns (c : Thread nD τ) (ms0_2 t) fullShare Y2 ∗ owns (c : Thread nD τ) (ms0_3 t) fullShare Y3
        ∗ owns (c : Thread nD τ) (ms0_4 t) fullShare Y4 ∗ owns (c : Thread nD τ) scM fullShare YS
        ∗ (iprop(owns (c : Thread nD τ) (ms0_0 t) fullShare Y0 ∗ owns (c : Thread nD τ) (ms0_1 t) fullShare Y1
              ∗ owns (c : Thread nD τ) (ms0_2 t) fullShare Y2 ∗ owns (c : Thread nD τ) (ms0_3 t) fullShare Y3
              ∗ owns (c : Thread nD τ) (ms0_4 t) fullShare (outOf t Y0 Y1 Y2 Y3 Y4 YS)
              ∗ owns (c : Thread nD τ) scM fullShare (accOf t Y0 Y1 Y2 Y3 YS)) -∗ K ⟨⟩))
      ⊢ wp frame (wpE (defs₀ (F := F)) Variants.none c none) Set.univ (bodyAt0 (F := F) t) K := by
  by_cases h0 : t.val % 32 = 0
  · have h31 : ¬t.val % 32 = 31 := by omega
    have e8 : accOf t Y0 Y1 Y2 Y3 YS = stepAcc (grid0.coords t) Y0 Y1 Y2 Y3 (k0_pay2 (F := F)) := by
      unfold accOf accIn; rw [if_pos h0]
    have e7 : outOf t Y0 Y1 Y2 Y3 Y4 YS = Y4 := by unfold outOf; rw [if_neg h31]
    rw [e7, e8]
    exact run_first c (grid0.coords t) (ms0_0 t) (hs0_0 t) (ms0_1 t) (hs0_1 t) (ms0_2 t) (hs0_2 t) (ms0_3 t) (hs0_3 t)
      (ms0_4 t) (hs0_4 t) scM (Memref.isWhole_whole _) ((hcond1 t).mpr h0) (fun h => h31 ((hcond2 t).mp h))
      Y0 Y1 Y2 Y3 Y4 YS K
  · have e8 : accOf t Y0 Y1 Y2 Y3 YS = stepAcc (grid0.coords t) Y0 Y1 Y2 Y3 YS := by
      unfold accOf accIn; rw [if_neg h0]
    by_cases h31 : t.val % 32 = 31
    · have e7 : outOf t Y0 Y1 Y2 Y3 Y4 YS = stepAcc (grid0.coords t) Y0 Y1 Y2 Y3 YS := by
        unfold outOf; rw [if_pos h31, e8]
      rw [e7, e8]
      exact run_last c (grid0.coords t) (ms0_0 t) (hs0_0 t) (ms0_1 t) (hs0_1 t) (ms0_2 t) (hs0_2 t) (ms0_3 t) (hs0_3 t)
        (ms0_4 t) (hs0_4 t) scM (Memref.isWhole_whole _) (fun h => h0 ((hcond1 t).mp h)) ((hcond2 t).mpr h31)
        Y0 Y1 Y2 Y3 Y4 YS K
    · have e7 : outOf t Y0 Y1 Y2 Y3 Y4 YS = Y4 := by unfold outOf; rw [if_neg h31]
      rw [e7, e8]
      exact run_mid c (grid0.coords t) (ms0_0 t) (hs0_0 t) (ms0_1 t) (hs0_1 t) (ms0_2 t) (hs0_2 t) (ms0_3 t) (hs0_3 t)
        (ms0_4 t) (hs0_4 t) scM (Memref.isWhole_whole _) (fun h => h0 ((hcond1 t).mp h)) (fun h => h31 ((hcond2 t).mp h))
        Y0 Y1 Y2 Y3 Y4 YS K

end Cert.KernelIdeal.Awq

end
-- ==== Proof.KIPay.lean ====
/-
  The accumulator's update read at one index, over the extended reals: entry (p, q) of the new accumulator is the
  old entry plus the sum over the group's 128 rows r of x_block[p, r] times the dequantized weight
  (field(q % 8) of weights_block[r, q / 8] minus field(q % 8) of zero_points_block[g, q / 8]) times scales_block[g, q].
  The eight fields of a word land side by side (the concatenation on a new last axis followed by the reshape that
  merges the last two axes puts field e of packed column c at column 8c + e), the conversions to bf16 are the
  identity on the extended reals, and the matrix product into a zero accumulator is the plain sum of products.
-/
import proofs.«414033_j56195352101389_4_alg».proof.Proof.KIStep
import proofs.«414033_j56195352101389_4_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Awq

open Cert.KernelIdeal Cert.KernelIdeal.Gen Cert.AwqSpec
open Idealize.ShloMosaic Idealize.ShloMosaic.ValueIdx

/-! ## The fields of a packed word -/

/-- The vector unit's arithmetic shift by a field's shift, masked with 15, is the field. -/
theorem field_eq (e : Fin 8) (x : BitVec 32) :
    IntOp.andi (IntOp.shrsi .vector x (shiftOf e)) 15#32 = nib e x := by
  unfold IntOp.andi IntOp.shrsi nib
  rw [if_pos (shiftOf_lt e)]

/-- Field `e` of every word of a vector of packed words. -/
def fields {s : Shape} (w : IVec s 32) (e : Fin 8) : IVec s 32 := fun i => nib e (w i)

theorem k0_pay3_eq (Y1 : Vec Ideal S128x128 .i32) : k0_pay3 (F := Ideal) Y1 = fields Y1 0 := funext fun i => field_eq 0 (Y1 i)
theorem k0_pay4_eq (Y1 : Vec Ideal S128x128 .i32) : k0_pay4 (F := Ideal) Y1 = fields Y1 1 := funext fun i => field_eq 1 (Y1 i)
theorem k0_pay5_eq (Y1 : Vec Ideal S128x128 .i32) : k0_pay5 (F := Ideal) Y1 = fields Y1 2 := funext fun i => field_eq 2 (Y1 i)
theorem k0_pay6_eq (Y1 : Vec Ideal S128x128 .i32) : k0_pay6 (F := Ideal) Y1 = fields Y1 3 := funext fun i => field_eq 3 (Y1 i)
theorem k0_pay7_eq (Y1 : Vec Ideal S128x128 .i32) : k0_pay7 (F := Ideal) Y1 = fields Y1 4 := funext fun i => field_eq 4 (Y1 i)
theorem k0_pay8_eq (Y1 : Vec Ideal S128x128 .i32) : k0_pay8 (F := Ideal) Y1 = fields Y1 5 := funext fun i => field_eq 5 (Y1 i)
theorem k0_pay9_eq (Y1 : Vec Ideal S128x128 .i32) : k0_pay9 (F := Ideal) Y1 = fields Y1 6 := funext fun i => field_eq 6 (Y1 i)
theorem k0_pay10_eq (Y1 : Vec Ideal S128x128 .i32) : k0_pay10 (F := Ideal) Y1 = fields Y1 7 := funext fun i => field_eq 7 (Y1 i)

theorem k0_pay12_eq (w : Vec Ideal S1x128 .i32) : k0_pay12 (F := Ideal) w = fields w 0 := funext fun i => field_eq 0 (w i)
theorem k0_pay13_eq (w : Vec Ideal S1x128 .i32) : k0_pay13 (F := Ideal) w = fields w 1 := funext fun i => field_eq 1 (w i)
theorem k0_pay14_eq (w : Vec Ideal S1x128 .i32) : k0_pay14 (F := Ideal) w = fields w 2 := funext fun i => field_eq 2 (w i)
theorem k0_pay15_eq (w : Vec Ideal S1x128 .i32) : k0_pay15 (F := Ideal) w = fields w 3 := funext fun i => field_eq 3 (w i)
theorem k0_pay16_eq (w : Vec Ideal S1x128 .i32) : k0_pay16 (F := Ideal) w = fields w 4 := funext fun i => field_eq 4 (w i)
theorem k0_pay17_eq (w : Vec Ideal S1x128 .i32) : k0_pay17 (F := Ideal) w = fields w 5 := funext fun i => field_eq 5 (w i)
theorem k0_pay18_eq (w : Vec Ideal S1x128 .i32) : k0_pay18 (F := Ideal) w = fields w 6 := funext fun i => field_eq 6 (w i)
/-- The last field of the row comes unmasked; the mask is applied where the row is assembled. -/
theorem k0_pay19_eq (w : Vec Ideal S1x128 .i32) :
    andi (k0_pay19 (F := Ideal) w) (broadcast S1x128 15#32) = fields w 7 := funext fun i => field_eq 7 (w i)

/-! ## Eight vectors side by side -/

/-- Eight vectors of m rows and 128 columns, each given a trailing unit axis, concatenated on that axis and
    flattened to m rows of 1024 columns: column q reads vector q % 8 at column q / 8, because the row-major position
    of (r, c, e) among [m, 128, 8] is that of (r, 8c + e) among [m, 1024]. -/
theorem unpack8_apply {α : Type} {m : Nat} (v : Fin 8 → (⟨2, ![m, 128]⟩ : Shape).Idx → α)
    (h1 : (⟨2, ![m, 128]⟩ : Shape).ShapeCasts ⟨3, ![m, 128, 1]⟩)
    (h2 : Shape.Concatenates [⟨3, ![m, 128, 1]⟩, ⟨3, ![m, 128, 1]⟩, ⟨3, ![m, 128, 1]⟩, ⟨3, ![m, 128, 1]⟩,
      ⟨3, ![m, 128, 1]⟩, ⟨3, ![m, 128, 1]⟩, ⟨3, ![m, 128, 1]⟩, ⟨3, ![m, 128, 1]⟩] ⟨3, ![m, 128, 8]⟩ 2)
    (h3 : (⟨3, ![m, 128, 8]⟩ : Shape).ShapeCasts ⟨2, ![m, 1024]⟩) (r : Fin m) (q : Fin 1024) :
    shapeCast ⟨2, ![m, 1024]⟩ (concatenate ⟨3, ![m, 128, 8]⟩ 2
      [⟨⟨3, ![m, 128, 1]⟩, shapeCast ⟨3, ![m, 128, 1]⟩ (v 0) h1⟩, ⟨⟨3, ![m, 128, 1]⟩, shapeCast ⟨3, ![m, 128, 1]⟩ (v 1) h1⟩,
       ⟨⟨3, ![m, 128, 1]⟩, shapeCast ⟨3, ![m, 128, 1]⟩ (v 2) h1⟩, ⟨⟨3, ![m, 128, 1]⟩, shapeCast ⟨3, ![m, 128, 1]⟩ (v 3) h1⟩,
       ⟨⟨3, ![m, 128, 1]⟩, shapeCast ⟨3, ![m, 128, 1]⟩ (v 4) h1⟩, ⟨⟨3, ![m, 128, 1]⟩, shapeCast ⟨3, ![m, 128, 1]⟩ (v 5) h1⟩,
       ⟨⟨3, ![m, 128, 1]⟩, shapeCast ⟨3, ![m, 128, 1]⟩ (v 6) h1⟩, ⟨⟨3, ![m, 128, 1]⟩, shapeCast ⟨3, ![m, 128, 1]⟩ (v 7) h1⟩] h2) h3
      (ix2 r q)
      = v ⟨q.val % 8, Nat.mod_lt _ (by decide)⟩ (ix2 r (⟨q.val / 8, by have := q.isLt; omega⟩ : Fin 128)) := by
  have hq := q.isLt
  refine (shapeCast_apply _ h3 (ix2 r q)
    (ix3 r (⟨q.val / 8, by omega⟩ : Fin 128) (⟨q.val % 8, Nat.mod_lt _ (by decide)⟩ : Fin 8)) ?_).trans ?_
  · rw [Shape.rowMajor_val_three, Shape.rowMajor_val_two]
    show (r.val * 128 + q.val / 8) * 8 + q.val % 8 = r.val * 1024 + q.val
    omega
  · show concatenate ⟨3, ![m, 128, 8]⟩ 2 (List.ofFn fun n : Fin 8 =>
        (⟨⟨3, ![m, 128, 1]⟩, shapeCast ⟨3, ![m, 128, 1]⟩ (v n) h1⟩ : (s : Shape) × (s.Idx → α))) h2 _ = _
    refine (concatenate_ofFn_unit_apply (t := ⟨3, ![m, 128, 8]⟩) (s₁ := ⟨3, ![m, 128, 1]⟩) 2
      (fun n : Fin 8 => shapeCast ⟨3, ![m, 128, 1]⟩ (v n) h1) h2 rfl rfl _
      (⟨q.val % 8, Nat.mod_lt _ (by decide)⟩ : Fin 8) rfl
      (ix3 r (⟨q.val / 8, by omega⟩ : Fin 128) (0 : Fin 1)) ?_).trans ?_
    · intro b hb
      match b with
      | ⟨0, _⟩ => rfl
      | ⟨1, _⟩ => rfl
      | ⟨2, _⟩ => exact absurd rfl hb
    · refine shapeCast_apply (v _) h1 _ (ix2 r (⟨q.val / 8, by omega⟩ : Fin 128)) ?_
      rw [Shape.rowMajor_val_three, Shape.rowMajor_val_two]
      show r.val * 128 + q.val / 8 = (r.val * 128 + q.val / 8) * 1 + 0
      omega

/-- The unpacked weight block at (r, q): the integer of field q % 8 of packed column q / 8, as a real. -/
theorem k0_pay11_apply (v : Fin 8 → IVec S128x128 32) (r : Fin 128) (q : Fin 1024) :
    k0_pay11 (F := Ideal) (v 0) (v 1) (v 2) (v 3) (v 4) (v 5) (v 6) (v 7) (ix2 r q)
      = ((((v ⟨q.val % 8, Nat.mod_lt _ (by decide)⟩ (ix2 r (⟨q.val / 8, by have := q.isLt; omega⟩ : Fin 128))).toInt : ℝ)) : EReal) := by
  unfold k0_pay11
  rw [sitofp_apply, unpack8_apply v]
  rfl

/-! ## The matrix product as a sum over the contracted coordinate -/

theorem lhs_mm_0 (i : S256x1024.Idx) (k : dot_S256x128_S128x1024_S256x1024_1_0_0_1_n_n.contr.Idx) :
    (dot_S256x128_S128x1024_S256x1024_1_0_0_1_n_n.lhsIdx i k 0).val = (i 0).val := by
  unfold DotDims.lhsIdx
  rw [dif_neg (show ¬(0 : Fin S256x128.rank) ∈ dot_S256x128_S128x1024_S256x1024_1_0_0_1_n_n.lhsBatch by decide),
    dif_pos (show (0 : Fin S256x128.rank) ∈ dot_S256x128_S128x1024_S256x1024_1_0_0_1_n_n.lhsNonContracting by decide)]
  rfl
theorem lhs_mm_1 (i : S256x1024.Idx) (k : dot_S256x128_S128x1024_S256x1024_1_0_0_1_n_n.contr.Idx) :
    (dot_S256x128_S128x1024_S256x1024_1_0_0_1_n_n.lhsIdx i k 1).val = (k ⟨0, by decide⟩).val :=
  dot_S256x128_S128x1024_S256x1024_1_0_0_1_n_n.lhsIdx_val_of_single rfl i k
theorem rhs_mm_0 (i : S256x1024.Idx) (k : dot_S256x128_S128x1024_S256x1024_1_0_0_1_n_n.contr.Idx) :
    (dot_S256x128_S128x1024_S256x1024_1_0_0_1_n_n.rhsIdx i k 0).val = (k ⟨0, by decide⟩).val :=
  dot_S256x128_S128x1024_S256x1024_1_0_0_1_n_n.rhsIdx_val_of_single rfl i k
theorem rhs_mm_1 (i : S256x1024.Idx) (k : dot_S256x128_S128x1024_S256x1024_1_0_0_1_n_n.contr.Idx) :
    (dot_S256x128_S128x1024_S256x1024_1_0_0_1_n_n.rhsIdx i k 1).val = (i 1).val := by
  unfold DotDims.rhsIdx
  rw [dif_neg (show ¬(1 : Fin S128x1024.rank) ∈ dot_S256x128_S128x1024_S256x1024_1_0_0_1_n_n.rhsBatch by decide),
    dif_pos (show (1 : Fin S128x1024.rank) ∈ dot_S256x128_S128x1024_S256x1024_1_0_0_1_n_n.rhsNonContracting by decide)]
  rfl

/-- The product of a 256×128 by a 128×1024 matrix into a zero accumulator, at (p, q): the sum over the 128 contracted
    positions r of A[p, r] · B[r, q]. -/
theorem matmul_sum (A : FVec Ideal S256x128 .bf16) (B : FVec Ideal S128x1024 .bf16) (p : Fin 256) (q : Fin 1024) :
    matmul dot_S256x128_S128x1024_S256x1024_1_0_0_1_n_n none A B (constant (F := Ideal) S256x1024 .f32 0x00000000#32) (ix2 p q)
      = ∑ r : Fin 128, A (ix2 p r) * B (ix2 r q) := by
  show FloatOps.matmul dot_S256x128_S128x1024_S256x1024_1_0_0_1_n_n none A B (constant (F := Ideal) S256x1024 .f32 0x00000000#32) (ix2 p q) = _
  rw [Ideal.matmul_constant_zero_apply, ← Equiv.sum_comp (contrEquiv1 dot_S256x128_S128x1024_S256x1024_1_0_0_1_n_n 128 rfl rfl).symm]
  refine Finset.sum_congr rfl fun k _ => ?_
  have hk := contrEquiv1_symm_val dot_S256x128_S128x1024_S256x1024_1_0_0_1_n_n 128 rfl rfl k
  have el : dot_S256x128_S128x1024_S256x1024_1_0_0_1_n_n.lhsIdx (ix2 p q) ((contrEquiv1 dot_S256x128_S128x1024_S256x1024_1_0_0_1_n_n 128 rfl rfl).symm k) = ix2 p k :=
    funext fun a => Fin.ext (by
      match a with
      | ⟨0, _⟩ => exact lhs_mm_0 _ _
      | ⟨1, _⟩ => exact (lhs_mm_1 _ _).trans hk)
  have er : dot_S256x128_S128x1024_S256x1024_1_0_0_1_n_n.rhsIdx (ix2 p q) ((contrEquiv1 dot_S256x128_S128x1024_S256x1024_1_0_0_1_n_n 128 rfl rfl).symm k) = ix2 k q :=
    funext fun a => Fin.ext (by
      match a with
      | ⟨0, _⟩ => exact (rhs_mm_0 _ _).trans hk
      | ⟨1, _⟩ => exact rhs_mm_1 _ _)
  rw [el, er]

/-! ## The update's payload at an index -/

/-- The payload that assembles the update, at (p, q), over any unpacked weight block `v46`, any eight zero-point rows
    `z` (the last one given unmasked as `z7`), scale row, `x` block and accumulator. -/
theorem k0_pay1_apply (v46 : FVec Ideal S128x1024 .f32) (z : Fin 8 → IVec S1x128 32) (z7 : IVec S1x128 32)
    (hz : andi z7 (broadcast S1x128 15#32) = z 7)
    (v93 : Vec Ideal S1x1024 .f32) (v99 : Vec Ideal S256x128 .f32) (v101 : Vec Ideal S256x1024 .f32) (p : Fin 256) (q : Fin 1024) :
    k0_pay1 (F := Ideal) v46 (z 0) (z 1) (z 2) (z 3) (z 4) (z 5) (z 6) z7 15#32 v93 v99 v101 (ix2 p q)
      = v101 (ix2 p q) + ∑ r : Fin 128, v99 (ix2 p r) *
          ((v46 (ix2 r q)
            - ((((z ⟨q.val % 8, Nat.mod_lt _ (by decide)⟩ (ix2 (0 : Fin 1) (⟨q.val / 8, by have := q.isLt; omega⟩ : Fin 128))).toInt : ℝ)) : EReal))
           * v93 (ix2 (0 : Fin 1) q)) := by
  unfold k0_pay1
  rw [shapeCast_self, addf_apply, hz, matmul_sum]
  refine congrArg (v101 (ix2 p q) + ·) (Finset.sum_congr rfl fun r _ => ?_)
  rw [truncf_apply, truncf_apply, mulf_apply, subf_apply, broadcastTo_1b_ab_apply, broadcastTo_1b_ab_apply, sitofp_apply,
    unpack8_apply z]
  rfl

/-! ## The two row loads -/

/-- The zero-point row the body loads at group g is row g of the zero-point block. -/
theorem qzRow_apply (i : grid0.Coords) (g : Fin 32) (hg : (i 2).val = g.val) (Y3 : Vec Ideal S32x128 .i32) (c : Fin 128) :
    qzRow (F := Ideal) i Y3 (ix2 (0 : Fin 1) c) = Y3 (ix2 g c) := by
  show Y3 _ = Y3 _
  congr 1
  funext a
  apply Fin.ext
  match a with
  | ⟨0, _⟩ =>
    show (k0_off1 i) 0 + 1 * 0 = g.val
    rw [k0_off1_eq]
    simpa using hg
  | ⟨1, _⟩ =>
    show (k0_off1 i) 1 + 1 * c.val = c.val
    rw [k0_off1_eq]
    simp

/-- The scale row the body loads at group g is row g of the scale block. -/
theorem scRow_apply (i : grid0.Coords) (g : Fin 32) (hg : (i 2).val = g.val) (Y2 : Vec Ideal S32x1024 .f32) (c : Fin 1024) :
    scRow (F := Ideal) i Y2 (ix2 (0 : Fin 1) c) = Y2 (ix2 g c) := by
  show Y2 _ = Y2 _
  congr 1
  funext a
  apply Fin.ext
  match a with
  | ⟨0, _⟩ =>
    show (k0_off2 i) 0 + 1 * 0 = g.val
    rw [k0_off2_eq]
    simpa using hg
  | ⟨1, _⟩ =>
    show (k0_off2 i) 1 + 1 * c.val = c.val
    rw [k0_off2_eq]
    simp

/-! ## The two statements -/

/-- The accumulator's starting value is zero everywhere. -/
theorem k0_pay2_apply (y : S256x1024.Idx) : k0_pay2 (F := Ideal) y = 0 := by
  unfold k0_pay2
  rw [shapeCast_self, broadcast_apply]
  exact Ideal.ofBits_zero_f32

/-- The update at entry (p, q): the old entry plus the group's 128 products. -/
theorem stepAcc_apply (i : grid0.Coords) (g : Fin 32) (hg : (i 2).val = g.val)
    (Y0 : Vec Ideal S256x128 .f32) (Y1 : Vec Ideal S128x128 .i32) (Y2 : Vec Ideal S32x1024 .f32)
    (Y3 : Vec Ideal S32x128 .i32) (acc : Vec Ideal S256x1024 .f32) (p : Fin 256) (q : Fin 1024) :
    stepAcc (F := Ideal) i Y0 Y1 Y2 Y3 acc (ix2 p q)
      = acc (ix2 p q) + ∑ r : Fin 128, Y0 (ix2 p r) *
          ((nibR ⟨q.val % 8, Nat.mod_lt _ (by decide)⟩ (Y1 (ix2 r (⟨q.val / 8, by have := q.isLt; omega⟩ : Fin 128)))
            - nibR ⟨q.val % 8, Nat.mod_lt _ (by decide)⟩ (Y3 (ix2 g (⟨q.val / 8, by have := q.isLt; omega⟩ : Fin 128))))
           * Y2 (ix2 g q)) := by
  unfold stepAcc
  rw [k0_pay3_eq, k0_pay4_eq, k0_pay5_eq, k0_pay6_eq, k0_pay7_eq, k0_pay8_eq, k0_pay9_eq, k0_pay10_eq,
    k0_pay12_eq, k0_pay13_eq, k0_pay14_eq, k0_pay15_eq, k0_pay16_eq, k0_pay17_eq, k0_pay18_eq,
    k0_pay1_apply _ (fields (qzRow (F := Ideal) i Y3)) _ (k0_pay19_eq _)]
  refine congrArg (acc (ix2 p q) + ·) (Finset.sum_congr rfl fun r _ => ?_)
  rw [k0_pay11_apply (fields Y1), scRow_apply i g hg]
  show Y0 (ix2 p r) * ((nibR _ (Y1 _) - nibR _ (qzRow (F := Ideal) i Y3 _)) * Y2 (ix2 g q)) = _
  rw [qzRow_apply i g hg]

end Cert.KernelIdeal.Awq

end
-- ==== Proof.KIFoundA.lean ====
/-
  What the body finds in the x buffer and the packed-weight buffer at a point, on the part inside the array.
  Point t = (mi·11 + n)·32 + g: both are fetched at every point; the x buffer holds rows mi·256 + p and columns
  g·128 + r of x, the packed-weight buffer rows g·128 + r and packed columns n·128 + k of qweight wherever that column
  lies inside the array (past the array's end the buffer holds words nothing names). Left as found, the packed-weight
  buffer is its block again on the part inside the array.
-/
import proofs.«414033_j56195352101389_4_alg».proof.Proof.KIDat
import proofs.«414033_j56195352101389_4_alg».proof.Proof.KIPay
import Idealize.ShloMosaic.Lib.Pipeline.FrameBody
import Idealize.ShloMosaic.Lib.Pipeline.Value

set_option maxRecDepth 16384

noncomputable section

open scoped BigOperators

namespace Cert.KernelIdeal.Awq

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.AwqSpec Idealize.ShloMosaic.ValueIdx

variable (m : (ℓ : Loc nD τ sig) → Buf (Elt Ideal) ℓ)

/-- The x and packed-weight staging buffers as the body finds them at point `t`, at their literal types. -/
abbrev fnd0 (c : Dev nD) (t : Fin cfg0.N) (d : (cfg0.win 0).block.Idx → Elt Ideal (cfg0.win 0).elt) : Vec Ideal S256x128 .f32 := (dats m 0 c).before 0 t d
abbrev fnd1 (c : Dev nD) (t : Fin cfg0.N) (d : (cfg0.win 1).block.Idx → Elt Ideal (cfg0.win 1).elt) : Vec Ideal S128x128 .i32 := (dats m 0 c).before 1 t d

/-- The block indices of the x window and of the packed-weight window at point t = (mi·11 + n)·32 + g, and the cut
    sizes of the latter: x block (mi, g); packed-weight block (g, n), of 128 rows and 128 columns, 96 in the last block
    column (1376 = 10·128 + 96). -/
theorem in_idx : ∀ t : Fin cfg0.N, win0_0.index t 0 = t.val / 352 ∧ win0_0.index t 1 = t.val % 32
    ∧ win0_1.index t 0 = t.val % 32 ∧ win0_1.index t 1 = t.val / 32 % 11
    ∧ win0_1.xsize (grid0.coords t) 0 = 128 ∧ win0_1.xsize (grid0.coords t) 1 = (if t.val / 32 % 11 = 10 then 96 else 128) :=
  (by decide +kernel : ∀ t : Fin grid0.N, win0_0.index t 0 = t.val / 352 ∧ win0_0.index t 1 = t.val % 32
    ∧ win0_1.index t 0 = t.val % 32 ∧ win0_1.index t 1 = t.val / 32 % 11
    ∧ win0_1.xsize (grid0.coords t) 0 = 128 ∧ win0_1.xsize (grid0.coords t) 1 = (if t.val / 32 % 11 = 10 then 96 else 128))

/-- The x buffer at point t holds rows mi·256 + p and columns g·128 + r of x: the window is fetched at every point
    and its blocks lie inside the array. -/
theorem found0 (c : Dev nD) (t : Fin cfg0.N) (d) (p : Fin 256) (r : Fin 128) :
    fnd0 m c t d (ix2 p r)
      = xA m c (ix2 (⟨t.val / 352 * 256 + p.val, by have h := lt_of_lt_of_eq t.isLt N_eq; have := p.isLt; omega⟩ : Fin 4096)
          (⟨t.val % 32 * 128 + r.val, by have := r.isLt; omega⟩ : Fin 4096)) := by
  refine (congrFun (Gen.before0_0_of m (dats m 0 c) (A_eq m c 0) (after0_0 m c) t d) (ix2 p r)).trans ?_
  show Gen.V m c main_arg0 (((cfg0.win 0).blk t).view.emb (ix2 p r)) = Gen.V m c main_arg0 (ix2 _ _)
  refine congrArg _ ?_
  obtain ⟨e0, e1, -⟩ := in_idx t
  funext a; apply Fin.ext
  match a with
  | ⟨0, _⟩ => show win0_0.index t 0 * 256 + 1 * p.val = t.val / 352 * 256 + p.val; rw [e0]; omega
  | ⟨1, _⟩ => show win0_0.index t 1 * 128 + 1 * r.val = t.val % 32 * 128 + r.val; rw [e1]; omega

/-- The packed-weight buffer at point t holds rows g·128 + r and packed columns n·128 + k of qweight wherever that
    column lies inside the array: the window is fetched at every point, and the fetch fills the block's part inside
    the array. -/
theorem found1 (c : Dev nD) (t : Fin cfg0.N) (d) (r : Fin 128) (k : Fin 128) (hk : t.val / 32 % 11 * 128 + k.val < 1376) :
    fnd1 m c t d (ix2 r k)
      = qwA m c (ix2 (⟨t.val % 32 * 128 + r.val, by have := r.isLt; omega⟩ : Fin 4096) (⟨t.val / 32 % 11 * 128 + k.val, hk⟩ : Fin 1376)) := by
  obtain ⟨-, -, e0, e1, s0, s1⟩ := in_idx t
  have hmv : win0_1.moved (grid0.coords t) (ix2 r k) = true := (win0_1.moved_iff _ _).mpr fun a => by
    match a with
    | ⟨0, _⟩ => show r.val < win0_1.xsize (grid0.coords t) 0; rw [s0]; exact r.isLt
    | ⟨1, _⟩ => show k.val < win0_1.xsize (grid0.coords t) 1; rw [s1]; have := k.isLt; split <;> omega
  show (dats m 0 c).before 1 t d (ix2 r k) = _
  unfold Dat.before
  rw [if_pos (fetch0_1 t)]
  unfold Dat.fetched Window.fill
  rw [dif_pos hmv]
  unfold Dat.blockOf
  rw [A_eq]
  show Gen.V m c main_arg1 (((cfg0.win 1).blk t).view.emb _) = Gen.V m c main_arg1 (ix2 _ _)
  refine congrArg _ ?_
  funext a; apply Fin.ext
  match a with
  | ⟨0, _⟩ => show win0_1.index t 0 * 128 + 1 * r.val = t.val % 32 * 128 + r.val; rw [e0]; omega
  | ⟨1, _⟩ => show win0_1.index t 1 * 128 + 1 * k.val = t.val / 32 % 11 * 128 + k.val; rw [e1]; omega

/-- Each clipped input's buffer, left as found, is the block again on the part inside the array. -/
theorem back1 (c : Dev nD) (t : Fin cfg0.N) (d) :
    ∃ d', (dats m 0 c).before 1 t d = (cfg0.win 1).fill (grid0.coords t) d' ((cfg0.win 1).cut (grid0.coords t) ((dats m 0 c).after 1 t)) := by
  refine ⟨d, ?_⟩
  unfold Dat.before
  rw [if_pos (fetch0_1 t), after0_1]
  show win0_1.fill (grid0.coords t) d ((dats m 0 c).blockOf 1 t)
    = win0_1.fill (grid0.coords t) d (win0_1.cut (grid0.coords t) (win0_1.fill (grid0.coords t) (fun _ => (0#32 : BitVec 32)) (Gen.iblk m c 1 t)))
  rw [win0_1.cut_fill]
  unfold Dat.blockOf Gen.iblk
  rw [A_eq]

end Cert.KernelIdeal.Awq

end
-- ==== Proof.KIFoundB.lean ====
/-
  What the body finds in the scale buffer and the zero-point buffer at a point, on the part inside the array.
  Point t = (mi·11 + n)·32 + g: both windows hold all 32 row groups and the columns n·1024 + q resp. n·128 + k; their
  block index does not move with g, so they are fetched at g = 0 and at every later g hold what the body left at the
  point before, which is the same block (same n). Left as found, each is its block again on the part inside the array.

  Both windows are inputs the body only reads and hands back as their block (on the part the transfers move), so at
  every point, fetched there or not, the buffer holds what a fetch there would put in it: the array's block at block
  index (0, n) on the moved part. An entry (g, q) with column n·1024 + q inside the array lies in the moved part (the
  cut keeps 768 resp. 96 columns at n = 10, all of them otherwise), and the block's entry there is the array's entry
  at row g, column n·1024 + q resp. n·128 + k.
-/
import proofs.«414033_j56195352101389_4_alg».proof.Proof.KIDat
import proofs.«414033_j56195352101389_4_alg».proof.Proof.KIPay
import Idealize.ShloMosaic.Lib.Pipeline.FrameBody
import Idealize.ShloMosaic.Lib.Pipeline.Value

set_option maxRecDepth 16384

noncomputable section

open scoped BigOperators

namespace Cert.KernelIdeal.Awq

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.AwqSpec Idealize.ShloMosaic.ValueIdx

variable (m : (ℓ : Loc nD τ sig) → Buf (Elt Ideal) ℓ)

/-- The scale and zero-point staging buffers as the body finds them at point `t`, at their literal types. -/
abbrev fnd2 (c : Dev nD) (t : Fin cfg0.N) (d : (cfg0.win 2).block.Idx → Elt Ideal (cfg0.win 2).elt) : Vec Ideal S32x1024 .f32 := (dats m 0 c).before 2 t d
abbrev fnd3 (c : Dev nD) (t : Fin cfg0.N) (d : (cfg0.win 3).block.Idx → Elt Ideal (cfg0.win 3).elt) : Vec Ideal S32x128 .i32 := (dats m 0 c).before 3 t d

/-- The scale window's block index and cut sizes at point `t`, in closed form. -/
theorem win2_closed : ∀ t : Fin cfg0.N, win0_2.index t 0 = 0 ∧ win0_2.index t 1 = t.val / 32 % 11
    ∧ win0_2.xsize (grid0.coords t) 0 = 32 ∧ win0_2.xsize (grid0.coords t) 1 = (if t.val / 32 % 11 = 10 then 768 else 1024) :=
  (by decide +kernel : ∀ t : Fin grid0.N, win0_2.index t 0 = 0 ∧ win0_2.index t 1 = t.val / 32 % 11
    ∧ win0_2.xsize (grid0.coords t) 0 = 32 ∧ win0_2.xsize (grid0.coords t) 1 = (if t.val / 32 % 11 = 10 then 768 else 1024))

/-- The scale buffer at any point holds what a fetch there puts in it. -/
theorem before2_fetched (c : Dev nD) (t : Fin cfg0.N) (d) : (dats m 0 c).before 2 t d = (dats m 0 c).fetched 2 t d :=
  (dats m 0 c).before_in_eq_fetched 2 rfl (fun _ => rfl)
    (fun t t' h => funext fun a => by
      have e := congrFun h a
      show Pipeline.Clip.of (win0_2.index t a) _ _ = Pipeline.Clip.of (win0_2.index t' a) _ _
      rw [e])
    (fun t => by
      rw [after0_2]
      refine (win0_2.cut_fill _ _ _).trans ?_
      unfold Dat.blockOf Gen.iblk
      rw [A_eq]) t d

theorem found2 (c : Dev nD) (t : Fin cfg0.N) (d) (g : Fin 32) (q : Fin 1024) (hq : t.val / 32 % 11 * 1024 + q.val < 11008) :
    fnd2 m c t d (ix2 g q) = scA m c (ix2 g (⟨t.val / 32 % 11 * 1024 + q.val, hq⟩ : Fin 11008)) := by
  obtain ⟨i0, i1, x0, x1⟩ := win2_closed t
  have hmv : win0_2.moved (grid0.coords t) (ix2 g q) = true := (win0_2.moved_iff _ _).mpr fun a => match a with
    | ⟨0, _⟩ => by show g.val < win0_2.xsize (grid0.coords t) 0; rw [x0]; exact g.isLt
    | ⟨1, _⟩ => by
      show q.val < win0_2.xsize (grid0.coords t) 1
      rw [x1]; have := q.isLt; split <;> omega
  show (dats m 0 c).before 2 t d (ix2 g q) = _
  rw [before2_fetched]
  unfold Dat.fetched
  show win0_2.fill (grid0.coords t) d ((dats m 0 c).blockOf 2 t) (ix2 g q) = _
  unfold Window.fill
  rw [dif_pos hmv]
  unfold Dat.blockOf
  rw [A_eq]
  show Gen.V m c main_arg2 ((win0_2.blk t).view.emb _) = Gen.V m c main_arg2 _
  refine congrArg _ (funext fun a => Fin.ext ?_)
  match a with
  | ⟨0, _⟩ =>
    show win0_2.index t 0 * 32 + 1 * g.val = g.val
    rw [i0]; omega
  | ⟨1, _⟩ =>
    show win0_2.index t 1 * 1024 + 1 * q.val = t.val / 32 % 11 * 1024 + q.val
    rw [i1]; omega

/-- The zero-point window's block index and cut sizes at point `t`, in closed form. -/
theorem win3_closed : ∀ t : Fin cfg0.N, win0_3.index t 0 = 0 ∧ win0_3.index t 1 = t.val / 32 % 11
    ∧ win0_3.xsize (grid0.coords t) 0 = 32 ∧ win0_3.xsize (grid0.coords t) 1 = (if t.val / 32 % 11 = 10 then 96 else 128) :=
  (by decide +kernel : ∀ t : Fin grid0.N, win0_3.index t 0 = 0 ∧ win0_3.index t 1 = t.val / 32 % 11
    ∧ win0_3.xsize (grid0.coords t) 0 = 32 ∧ win0_3.xsize (grid0.coords t) 1 = (if t.val / 32 % 11 = 10 then 96 else 128))

/-- The zero-point buffer at any point holds what a fetch there puts in it. -/
theorem before3_fetched (c : Dev nD) (t : Fin cfg0.N) (d) : (dats m 0 c).before 3 t d = (dats m 0 c).fetched 3 t d :=
  (dats m 0 c).before_in_eq_fetched 3 rfl (fun _ => rfl)
    (fun t t' h => funext fun a => by
      have e := congrFun h a
      show Pipeline.Clip.of (win0_3.index t a) _ _ = Pipeline.Clip.of (win0_3.index t' a) _ _
      rw [e])
    (fun t => by
      rw [after0_3]
      refine (win0_3.cut_fill _ _ _).trans ?_
      unfold Dat.blockOf Gen.iblk
      rw [A_eq]) t d

theorem found3 (c : Dev nD) (t : Fin cfg0.N) (d) (g : Fin 32) (k : Fin 128) (hk : t.val / 32 % 11 * 128 + k.val < 1376) :
    fnd3 m c t d (ix2 g k) = qzA m c (ix2 g (⟨t.val / 32 % 11 * 128 + k.val, hk⟩ : Fin 1376)) := by
  obtain ⟨i0, i1, x0, x1⟩ := win3_closed t
  have hmv : win0_3.moved (grid0.coords t) (ix2 g k) = true := (win0_3.moved_iff _ _).mpr fun a => match a with
    | ⟨0, _⟩ => by show g.val < win0_3.xsize (grid0.coords t) 0; rw [x0]; exact g.isLt
    | ⟨1, _⟩ => by
      show k.val < win0_3.xsize (grid0.coords t) 1
      rw [x1]; have := k.isLt; split <;> omega
  show (dats m 0 c).before 3 t d (ix2 g k) = _
  rw [before3_fetched]
  unfold Dat.fetched
  show win0_3.fill (grid0.coords t) d ((dats m 0 c).blockOf 3 t) (ix2 g k) = _
  unfold Window.fill
  rw [dif_pos hmv]
  unfold Dat.blockOf
  rw [A_eq]
  show Gen.V m c main_arg3 ((win0_3.blk t).view.emb _) = Gen.V m c main_arg3 _
  refine congrArg _ (funext fun a => Fin.ext ?_)
  match a with
  | ⟨0, _⟩ =>
    show win0_3.index t 0 * 32 + 1 * g.val = g.val
    rw [i0]; omega
  | ⟨1, _⟩ =>
    show win0_3.index t 1 * 128 + 1 * k.val = t.val / 32 % 11 * 128 + k.val
    rw [i1]; omega

theorem back2 (c : Dev nD) (t : Fin cfg0.N) (d) :
    ∃ d', (dats m 0 c).before 2 t d = (cfg0.win 2).fill (grid0.coords t) d' ((cfg0.win 2).cut (grid0.coords t) ((dats m 0 c).after 2 t)) := by
  refine ⟨d, ?_⟩
  rw [before2_fetched, after0_2]
  unfold Dat.fetched
  show win0_2.fill (grid0.coords t) d ((dats m 0 c).blockOf 2 t) = win0_2.fill (grid0.coords t) d (win0_2.cut (grid0.coords t) (win0_2.fill (grid0.coords t) _ (Gen.iblk m c 2 t)))
  rw [win0_2.cut_fill]
  unfold Dat.blockOf Gen.iblk
  rw [A_eq]

theorem back3 (c : Dev nD) (t : Fin cfg0.N) (d) :
    ∃ d', (dats m 0 c).before 3 t d = (cfg0.win 3).fill (grid0.coords t) d' ((cfg0.win 3).cut (grid0.coords t) ((dats m 0 c).after 3 t)) := by
  refine ⟨d, ?_⟩
  rw [before3_fetched, after0_3]
  unfold Dat.fetched
  show win0_3.fill (grid0.coords t) d ((dats m 0 c).blockOf 3 t) = win0_3.fill (grid0.coords t) d (win0_3.cut (grid0.coords t) (win0_3.fill (grid0.coords t) _ (Gen.iblk m c 3 t)))
  rw [win0_3.cut_fill]
  unfold Dat.blockOf Gen.iblk
  rw [A_eq]

end Cert.KernelIdeal.Awq

end
-- ==== Proof.KIAgree.lean ====
/-
  The accumulator's step on the columns inside the array. With the four input buffers at what the body finds, entry
  (p, q) of the updated accumulator is the old entry plus the 128 products of group g, whose factors are the
  arrays' entries at rows g·128 + r: so the running total over g + 1 groups, given the total over g groups before
  (zero at g = 0). At g = 31 the total is the whole sum over 4096 rows: the product's block, which is what the
  output buffer's part inside the array must hold.
-/
import proofs.«414033_j56195352101389_4_alg».proof.Proof.KIFoundA
import proofs.«414033_j56195352101389_4_alg».proof.Proof.KIFoundB
import proofs.«414033_j56195352101389_4_alg».proof.Proof.KIPay
import Idealize.ShloMosaic.Lib.Pipeline.FrameBody
import Idealize.ShloMosaic.Lib.Pipeline.Value

set_option maxRecDepth 16384

noncomputable section

open scoped BigOperators

namespace Cert.KernelIdeal.Awq

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.AwqSpec Idealize.ShloMosaic.ValueIdx

variable (m : (ℓ : Loc nD τ sig) → Buf (Elt Ideal) ℓ)

/-- One term of the product's sum with its field, packed column and row group named. -/
theorem term_eq (x : S4096x4096.Idx → EReal) (qw : S4096x1376.Idx → BitVec 32) (sc : S32x11008.Idx → EReal)
    (qz : S32x1376.Idx → BitVec 32) (i : Fin 4096) (J : Fin 11008) (k : Fin 4096) (e : Fin 8) (cc : Fin 1376) (g : Fin 32)
    (he : J.val % 8 = e.val) (hc : J.val / 8 = cc.val) (hg : k.val / 128 = g.val) :
    term x qw sc qz i J k = x (ix2 i k) * ((nibR e (qw (ix2 k cc)) - nibR e (qz (ix2 g cc))) * sc (ix2 g J)) := by
  obtain ⟨ev, hev⟩ := e
  obtain ⟨cv, hcv⟩ := cc
  obtain ⟨gv, hgv⟩ := g
  dsimp only at he hc hg
  subst he hc hg
  rfl

/-- The terms of a point's block entry depend on the point through its output block (mi, n) only. -/
theorem hterm_congr (c : Dev nD) (t t' : Fin cfg0.N) (p : Fin 256) (q : Fin 1024)
    (hq : t.val / 32 % 11 * 1024 + q.val < 11008) (hq' : t'.val / 32 % 11 * 1024 + q.val < 11008)
    (h1 : t'.val / 352 = t.val / 352) (h2 : t'.val / 32 % 11 = t.val / 32 % 11) :
    hterm m c t' p q hq' = hterm m c t p q hq := by
  unfold hterm
  congr 1
  · exact Fin.ext (by show t'.val / 352 * 256 + p.val = t.val / 352 * 256 + p.val; rw [h1])
  · exact Fin.ext (by show t'.val / 32 % 11 * 1024 + q.val = t.val / 32 % 11 * 1024 + q.val; rw [h2])

/-- The accumulator after point `t` agrees with the running total, given that before it (for g > 0) it agreed with
    the total one group back. -/
theorem agree_step (c : Dev nD) (t : Fin cfg0.N) (d0 d1 d2 d3) (YS : Vec Ideal S256x1024 .f32)
    (hS : ∀ h0 : t.val % 32 ≠ 0, Agree m c ⟨t.val - 1, by have := t.isLt; omega⟩ YS) :
    Agree m c t (accOf t (fnd0 m c t d0) (fnd1 m c t d1) (fnd2 m c t d2) (fnd3 m c t d3) YS) := by
  intro p q hq
  have hN := lt_of_lt_of_eq t.isLt N_eq
  have hqlt := q.isLt
  obtain ⟨h0c, h1c, h2c⟩ := coords_closed t
  -- packed column q / 8 of block n lies inside the packed arrays, because column n·1024 + q lies inside the array
  have hk : t.val / 32 % 11 * 128 + q.val / 8 < 1376 := by omega
  unfold accOf
  rw [stepAcc_apply (grid0.coords t) ⟨t.val % 32, Nat.mod_lt _ (by decide)⟩ h2c, partSum_succ]
  refine congrArg₂ (· + ·) ?_ ?_
  · -- the old entry: zero before the first group, else the total one group back
    unfold accIn
    by_cases h0 : t.val % 32 = 0
    · rw [if_pos h0, k0_pay2_apply, h0, partSum_zero]
    · rw [if_neg h0]
      have hq' : (t.val - 1) / 32 % 11 * 1024 + q.val < 11008 := by
        have : (t.val - 1) / 32 = t.val / 32 := by omega
        rw [this]; exact hq
      have hP := hS h0 p q hq'
      have hg1 : (t.val - 1) % 32 + 1 = t.val % 32 := by omega
      have e352 : (t.val - 1) / 352 = t.val / 352 := by omega
      have e32 : (t.val - 1) / 32 % 11 = t.val / 32 % 11 := by
        have : (t.val - 1) / 32 = t.val / 32 := by omega
        rw [this]
      rw [hP]
      show partSum (hterm m c ⟨t.val - 1, _⟩ p q hq') ((t.val - 1) % 32 + 1) = _
      rw [hg1, hterm_congr m c t ⟨t.val - 1, by omega⟩ p q hq hq' e352 e32]
  · -- the group's 128 products are the group's 128 terms
    rw [grpSum_of_lt _ (Nat.mod_lt _ (by decide))]
    refine Finset.sum_congr rfl fun r _ => ?_
    have hr := r.isLt
    rw [found0, found1 m c t d1 r _ hk, found3 m c t d3 _ _ hk, found2 m c t d2 _ q hq]
    unfold hterm
    exact (term_eq _ _ _ _ _ _ _ ⟨q.val % 8, Nat.mod_lt _ (by decide)⟩ ⟨t.val / 32 % 11 * 128 + q.val / 8, hk⟩
      ⟨t.val % 32, Nat.mod_lt _ (by decide)⟩
      (by show (t.val / 32 % 11 * 1024 + q.val) % 8 = q.val % 8; omega)
      (by show (t.val / 32 % 11 * 1024 + q.val) / 8 = t.val / 32 % 11 * 128 + q.val / 8; omega)
      (by show (t.val % 32 * 128 + r.val) / 128 = t.val % 32; omega)).symm

/-- The output window's block index at point t = (mi·11 + n)·32 + g is (mi, n). -/
theorem index4_0 (t : Fin cfg0.N) : win0_4.index t 0 = t.val / 352 := by
  have hN := lt_of_lt_of_eq t.isLt N_eq
  show (BitVec.ofNat 32 (grid0.coords t 0).val).toNat = _
  rw [BitVec.toNat_ofNat, (coords_closed t).1]
  exact Nat.mod_eq_of_lt (by omega)
theorem index4_1 (t : Fin cfg0.N) : win0_4.index t 1 = t.val / 32 % 11 := by
  show (BitVec.ofNat 32 (grid0.coords t 1).val).toNat = _
  rw [BitVec.toNat_ofNat, (coords_closed t).2.1]
  exact Nat.mod_eq_of_lt (by omega)

/-- At a group's last point the accumulator's part inside the array is the block of the product. -/
theorem out_back (c : Dev nD) (t : Fin cfg0.N) (h31 : t.val % 32 = 31) (X : Vec Ideal S256x1024 .f32) (hX : Agree m c t X) :
    ∃ d, X = (cfg0.win 4).fill (grid0.coords t) d ((cfg0.win 4).cut (grid0.coords t) ((dats m 0 c).after 4 t)) := by
  refine ⟨X, ((cfg0.win 4).fill_congr_cut (grid0.coords t) (X := X) (Y := (dats m 0 c).after 4 t) ?_).symm⟩
  rw [after0_4]
  show win0_4.cut (grid0.coords t) X = win0_4.cut (grid0.coords t)
    (win0_4.fill (grid0.coords t) (fun _ => (0 : EReal)) ((win0_4.blk t).view.read (Elt Ideal) (Gout m c)))
  rw [Window.cut_fill]
  funext y
  rw [View.read_apply, cast_eq]
  have hN := lt_of_lt_of_eq t.isLt N_eq
  -- the block index's coordinates lie below the block's sizes, and its column lies inside the array
  have hy0 : (y 0).val < 256 := lt_of_lt_of_le (y 0).isLt (win0_4.xsize_le (grid0.coords t) 0)
  have hy1 : (y 1).val < 1024 := lt_of_lt_of_le (y 1).isLt (win0_4.xsize_le (grid0.coords t) 1)
  have hx1 : (y 1).val < win0_4.xsize (grid0.coords t) 1 := (y 1).isLt
  have hin : win0_4.index t 1 * 1024 + win0_4.xsize (grid0.coords t) 1 ≤ 11008 :=
    Pipeline.Clip.inb (win0_4.hclip (grid0.coords t) 1)
  rw [index4_1] at hin
  have hq : t.val / 32 % 11 * 1024 + (y 1).val < 11008 := by omega
  -- where the block's entry sits in the array
  have e0 : ((win0_4.blk t).view.emb y 0).val = t.val / 352 * 256 + (y 0).val := by
    have h := win0_4.rect_emb_val t y 0
    rw [index4_0] at h
    exact h
  have e1 : ((win0_4.blk t).view.emb y 1).val = t.val / 32 % 11 * 1024 + (y 1).val := by
    have h := win0_4.rect_emb_val t y 1
    rw [index4_1] at h
    exact h
  have hj : (win0_4.blk t).view.emb y
      = ix2 (⟨t.val / 352 * 256 + (y 0).val, by omega⟩ : Fin 4096) (⟨t.val / 32 % 11 * 1024 + (y 1).val, hq⟩ : Fin 11008) :=
    funext fun a => Fin.ext (match a with | ⟨0, _⟩ => e0 | ⟨1, _⟩ => e1)
  have hi : win0_4.xinj (grid0.coords t) y = ix2 (⟨(y 0).val, hy0⟩ : Fin 256) (⟨(y 1).val, hy1⟩ : Fin 1024) :=
    funext fun a => Fin.ext (match a with | ⟨0, _⟩ => rfl | ⟨1, _⟩ => rfl)
  show X (win0_4.xinj (grid0.coords t) y) = _
  rw [hi, hj, hX ⟨(y 0).val, hy0⟩ ⟨(y 1).val, hy1⟩ hq, h31]
  show partSum _ 32 = G (xA m c) (qwA m c) (scA m c) (qzA m c) (ix2 _ _)
  rw [partSum_all, G_apply]
  rfl

end Cert.KernelIdeal.Awq

end
-- ==== Proof.KIOblig.lean ====
/-
  The body obligation of the idealized kernel's pipeline: at every grid point the body takes the invariant and the
  staging buffers as the pipeline hands them over to the invariant and the buffers as the proof data names them.
  The columns of a block that overhang the array's end hold words nothing names; the obligation states every buffer
  on its part inside the array only, and that part of the updated accumulator depends on those parts only.
-/
import proofs.«414033_j56195352101389_4_alg».proof.Proof.KIDat
import proofs.«414033_j56195352101389_4_alg».proof.Proof.KIRun
import proofs.«414033_j56195352101389_4_alg».proof.Proof.KIPay
import proofs.«414033_j56195352101389_4_alg».proof.Proof.KIAgree
import Idealize.ShloMosaic.Lib.Pipeline.FrameBody
import Idealize.ShloMosaic.Lib.Pipeline.Value

set_option maxRecDepth 16384

noncomputable section

open scoped BigOperators

namespace Cert.KernelIdeal.Awq

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.AwqSpec Idealize.ShloMosaic.ValueIdx

local notation "𝕄" => MT nD τ sig Unit (Elt Ideal) ℕ (UR sig nD τ) ℕ

variable (m : (ℓ : Loc nD τ sig) → Buf (Elt Ideal) ℓ)

/-- The scoped rest of the region is the scratch accumulator at some contents and the generator register at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The output's staging buffer is stored into exactly at a group's last point, g = 31. -/
theorem idle4_iff : ∀ t : Fin cfg0.N, idle0 4 (grid0.coords t) = true ↔ t.val % 32 ≠ 31 :=
  (by decide +kernel : ∀ t : Fin grid0.N, idle0 4 (grid0.coords t) = true ↔ t.val % 32 ≠ 31)

/-- Before point `t` the invariant holds the scratch at some contents which, unless the point is a group's first,
    agree with the running total after the point before; and the generator register at some state. -/
theorem PhiS_open (c : Dev nD) (t : Fin cfg0.N) :
    PhiS m c t.val (Nat.le_of_lt t.isLt)
      ⊢ iprop(iprop(∃ YS, owns (c : Thread nD τ) scM fullShare YS
            ∗ ⌜∀ h0 : t.val % 32 ≠ 0, Agree m c ⟨t.val - 1, by have := t.isLt; omega⟩ YS⌝) ∗ (∃ r, prngReg c r)) := by
  by_cases hz : t.val = 0
  · rw [PhiS_zero m c _ _ hz, PhiA_eq]
    iintro ⟨⟨%YS, HS⟩, Hg⟩
    isplitl [HS]
    · iexists YS
      isplitl [HS]
      · iexact HS
      ipureintro; intro h0; exfalso; omega
    iexact Hg
  · rw [PhiS_pos m c _ _ hz]
    iintro ⟨⟨%YS, HS, %hA⟩, Hg⟩
    isplitl [HS]
    · iexists YS
      isplitl [HS]
      · iexact HS
      ipureintro; intro _; exact hA
    iexact Hg

/-- The library's body obligation, every window stated on the part its transfers move. -/
theorem body_obligation (c : Dev nD) :
    BodyObligationLoose (dats m 0 c) (defs₀ (F := Ideal)) Variants.none () Set.univ := fun t => by
  rw [bigSep_W0, bigSep_W0]
  -- the matches on the configuration reduce: window 0 is exact and never idle, windows 1 to 3 are stated on their
  -- parts inside the arrays and never idle, and the output's case is decided by the point
  simp only
  rw [show (dats m 0 c).owesAt () t.succ = (dats m 0 c).owesAt () t.castSucc from rfl,
    show (dats m 0 c).Φ t.succ = PhiS m c (t.val + 1) t.isLt from rfl, PhiS_succ, PhiS_castSucc m c t]
  iintro ⟨HΦ, Ho, ⟨%d0, H0⟩, ⟨%d1, H1⟩, ⟨%d2, H2⟩, ⟨%d3, H3⟩, ⟨%d4, H4⟩⟩
  ihave HΦ' := (PhiS_open m c t) $$ HΦ
  icases HΦ' with ⟨⟨%YS, HS, %hS⟩, Hg⟩
  -- the updated accumulator agrees with the running total over the groups up to this one
  have hAg : Agree m c t (accOf t (fnd0 m c t d0) (fnd1 m c t d1) (fnd2 m c t d2) (fnd3 m c t d3) YS) :=
    agree_step m c t d0 d1 d2 d3 YS hS
  obtain ⟨e1, he1⟩ := back1 m c t d1
  obtain ⟨e2, he2⟩ := back2 m c t d2
  obtain ⟨e3, he3⟩ := back3 m c t d3
  have h0 : (dats m 0 c).after 0 t = (dats m 0 c).before 0 t d0 :=
    (after0_0 m c t).trans (Gen.before0_0_of m (dats m 0 c) (A_eq m c 0) (after0_0 m c) t d0).symm
  iapply (sound_step (F := Ideal) c t (fnd0 m c t d0) (fnd1 m c t d1) (fnd2 m c t d2) (fnd3 m c t d3)
    ((dats m 0 c).before 4 t d4) YS _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, HS⟩
  isplitl [HS Hg]
  · isplitl [HS]
    · iexists _
      isplitl [HS]
      · iexact HS
      ipureintro; exact hAg
    iexact Hg
  isplitl [Ho]; · iexact Ho
  isplitl [H0]
  · rw [h0]; iexact H0
  isplitl [H1]
  · iexists e1; rw [← he1]; iexact H1
  isplitl [H2]
  · iexists e2; rw [← he2]; iexact H2
  isplitl [H3]
  · iexists e3; rw [← he3]; iexact H3
  by_cases h31 : t.val % 32 = 31
  · -- a group's last point: the output's buffer received the accumulator, whose part inside the array is the
    -- product's block
    have hi : idle0 4 (grid0.coords t) = false := by
      have := (idle4_iff t).not.mpr (by simpa using h31); simpa using this
    rw [hi]
    simp only
    obtain ⟨e4, he4⟩ := out_back m c t h31 _ hAg
    iexists e4
    rw [← he4]
    unfold outOf; rw [if_pos h31]
    iexact H4
  · -- any other point: the body stores nothing there and the block is not written back; the buffer is as found
    have hi : idle0 4 (grid0.coords t) = true := (idle4_iff t).mpr h31
    have hf : (win0 4).flush t = false := by
      have := (Gen.flush0_4 t).not.mpr h31; simpa using this
    rw [hi, hf]
    simp only
    iexists d4
    unfold outOf; rw [if_neg h31]
    iexact H4

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scoped rest back: what the scratch holds is forgotten. -/
theorem hout (c : Dev nD) : (dats m 0 c).Φ (Fin.last cfg0.N) ⊢ Pipeline.ΦA spec0 c := by
  have hN : (Fin.last cfg0.N).val ≠ 0 := by rw [Fin.val_last, N_eq]; omega
  rw [show (dats m 0 c).Φ (Fin.last cfg0.N) = PhiS m c (Fin.last cfg0.N).val (Nat.le_of_lt_succ (Fin.last cfg0.N).isLt) from rfl,
    PhiS_pos m c _ _ hN, PhiA_eq]
  iintro ⟨⟨%XS, HS, -⟩, Hg⟩
  isplitl [HS]
  · iexists XS; iexact HS
  iexact Hg

end Cert.KernelIdeal.Awq

end
-- ==== Proof.KIBody.lean ====
/-
  The idealized kernel's run and its result: under the pipeline every weakly fair execution terminates without a
  fault, the four argument arrays end unchanged, and the result array ends holding x times the dequantized weights:
  every index of the result lies in the block of exactly the points (mi, n, 31), whose write-back writes that block
  of the product, cut at the array's last column.
-/
import proofs.«414033_j56195352101389_4_alg».proof.Proof.KIOblig
import Idealize.ShloMosaic.Lib.Pipeline.Value

set_option maxRecDepth 16384

noncomputable section

open scoped BigOperators

namespace Cert.KernelIdeal.Awq

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.AwqSpec Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The frame run: every array of the pipeline ends at what the library computes from the proof data. -/
theorem run_main : θ_run (defs (F := Ideal)) (onTc (τ := τ) (main (F := Ideal))) (s₀ m ρ) (Pipeline.FramePost cfgs (dats m) 0 (Gen.V m)) :=
  Pipeline.θ_run_frame_track cfgs (dats m) (0 : Fin 1) Gen.launch0 defs₀ Variants.none m ρ main
    (hbody := fun c => body_obligation m c) (hshare := fun c => (dats m 0 c).share_full fun _ => rfl)
    (howed := fun _ _ => rfl) (V := Gen.V m)
    (hmain := Gen.hmain m Variants.none) (hA := A_eq m) (hin := hin m) (hout := hout m)

/-- The write-back at a point writes that point's block of the product, cut at the array's last column. -/
theorem flushed_out (c : Dev nD) (t : Fin cfg0.N) :
    (dats m 0 c).flushed 4 t = ((cfg0.win 4).blk t).view.read (Elt Ideal) (Gout m c) := by
  show win0_4.cut (grid0.coords t) ((dats m 0 c).after 4 t) = _
  rw [after0_4]
  exact win0_4.cut_fill _ _ _

/-- The output window's block index and cut sizes at point t = (mi·11 + n)·32 + g: block (mi, n), of 256 rows and
    1024 columns, 768 in the last block column (11008 = 10·1024 + 768). -/
theorem out_idx : ∀ t : Fin cfg0.N, win0_4.index t 0 = t.val / 352 ∧ win0_4.index t 1 = t.val / 32 % 11
    ∧ win0_4.xsize (grid0.coords t) 0 = 256 ∧ win0_4.xsize (grid0.coords t) 1 = (if t.val / 32 % 11 = 10 then 768 else 1024) :=
  (by decide +kernel : ∀ t : Fin grid0.N, win0_4.index t 0 = t.val / 352 ∧ win0_4.index t 1 = t.val / 32 % 11
    ∧ win0_4.xsize (grid0.coords t) 0 = 256 ∧ win0_4.xsize (grid0.coords t) 1 = (if t.val / 32 % 11 = 10 then 768 else 1024))

/-- An index of the result array is in point t's block iff on each axis its coordinate is at least the block index
    times the block size and below that plus the cut size. -/
theorem mem_out_blk (t : Fin cfg0.N) (i : S4096x11008.Idx) :
    i ∈ ((cfg0.win 4).blk t).view.set ↔
      (win0_4.index t 0 * 256 ≤ (i 0 : Nat) ∧ (i 0 : Nat) < win0_4.index t 0 * 256 + win0_4.xsize (grid0.coords t) 0)
      ∧ (win0_4.index t 1 * 1024 ≤ (i 1 : Nat) ∧ (i 1 : Nat) < win0_4.index t 1 * 1024 + win0_4.xsize (grid0.coords t) 1) := by
  show i ∈ ((View.whole main_v0).slice (win0_4.rect t)).set ↔ _
  rw [View.set_slice_whole, Rect.mem_set_unit]
  refine ⟨fun h => ⟨h 0, h 1⟩, fun h a => ?_⟩
  match a with
  | ⟨0, _⟩ => exact h.1
  | ⟨1, _⟩ => exact h.2

/-- Every index (r, k) of the result array lies in the block of the point (r / 256, k / 1024, 31), which writes its
    block back. -/
theorem out_cover (i : S4096x11008.Idx) :
    ∃ t : Fin cfg0.N, (cfg0.win 4).flush t = true ∧ i ∈ ((cfg0.win 4).blk t).view.set := by
  have h0 : (i 0 : Nat) < 4096 := (i 0).isLt
  have h1 : (i 1 : Nat) < 11008 := (i 1).isLt
  refine ⟨⟨((i 0 : Nat) / 256 * 11 + (i 1 : Nat) / 1024) * 32 + 31, by rw [N_eq]; omega⟩, ?_, ?_⟩
  · rw [flush0_4]; show (((i 0 : Nat) / 256 * 11 + (i 1 : Nat) / 1024) * 32 + 31) % 32 = 31; omega
  · rw [mem_out_blk]
    obtain ⟨e0, e1, e2, e3⟩ := out_idx ⟨((i 0 : Nat) / 256 * 11 + (i 1 : Nat) / 1024) * 32 + 31, by rw [N_eq]; omega⟩
    rw [e0, e1, e2, e3]
    show ((((i 0 : Nat) / 256 * 11 + (i 1 : Nat) / 1024) * 32 + 31) / 352 * 256 ≤ (i 0 : Nat)
        ∧ (i 0 : Nat) < (((i 0 : Nat) / 256 * 11 + (i 1 : Nat) / 1024) * 32 + 31) / 352 * 256 + 256)
      ∧ ((((i 0 : Nat) / 256 * 11 + (i 1 : Nat) / 1024) * 32 + 31) / 32 % 11 * 1024 ≤ (i 1 : Nat)
        ∧ (i 1 : Nat) < (((i 0 : Nat) / 256 * 11 + (i 1 : Nat) / 1024) * 32 + 31) / 32 % 11 * 1024
            + (if (((i 0 : Nat) / 256 * 11 + (i 1 : Nat) / 1024) * 32 + 31) / 32 % 11 = 10 then 768 else 1024))
    split <;> omega

/-- The result array after the run is the product. -/
theorem final_out (c : Dev nD) : (dats m 0 c).arrAt 4 cfg0.N = Gout m c :=
  (dats m 0 c).arrAt_eq_of_cover 4 (Gout m c) (fun t _ => flushed_out m c t) out_cover

/-- The run at its values: the result array ends holding the product, the four argument arrays end unchanged. -/
theorem run_value :
    θ_run (defs (F := Ideal)) (onTc (τ := τ) (main (F := Ideal))) ⟨m, fun _ => 0, ρ⟩ (fun r => ∀ c : Dev nD,
      r.2.mem ((c.tc : Thread nD τ).loc main_v0)
          = G (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 4).trans (final_out m c),
      ((h c).1 0).trans (((dats m 0 c).arrAt_in 0 rfl _).trans ((A_eq m c 0).trans (Gen.V_main_arg0 m c))),
      ((h c).1 1).trans (((dats m 0 c).arrAt_in 1 rfl _).trans ((A_eq m c 1).trans (Gen.V_main_arg1 m c))),
      ((h c).1 2).trans (((dats m 0 c).arrAt_in 2 rfl _).trans ((A_eq m c 2).trans (Gen.V_main_arg2 m c))),
      ((h c).1 3).trans (((dats m 0 c).arrAt_in 3 rfl _).trans ((A_eq m c 3).trans (Gen.V_main_arg3 m c)))⟩)
    (run_main m ρ)

end Cert.KernelIdeal.Awq

end
-- ==== Proof.RefValue.lean ====
/-
  The reference's run and its result: every weakly fair execution of its host program terminates, the argument
  arrays end unchanged, and the result is x times the dequantized weights — the same function `G` the kernel
  computes. The unpacking broadcasts each word against the table of eight shifts, shifts, masks with 15 and merges
  the last two axes (field e of packed column c lands at column 8c + e); the per-group zero points and scales are
  repeated over the 128 rows of a group by a broadcast on a new middle axis merged into the row axis
  (row k reads group k / 128); the final dot_general contracts the 4096 rows.

  First the value: each layout operation is read at an index (a broadcast reads its operand at the coordinates its
  dimension list names, a reshape at the index with the same row-major position), which brings the composed term at
  (i, J) to Σ k, x[i, k] * W k J. Then the run: the program is the straight line of its 28 operations, so its result
  buffer ends at their composed term of the arguments, and no operation writes an argument.
-/
import proofs.«414033_j56195352101389_4_alg».proof.Defs
import proofs.«414033_j56195352101389_4_alg».proof.Proof.Gen.ReferenceIdeal
import proofs.«414033_j56195352101389_4_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.Lib.StackMember
import Idealize.ShloMosaic.PureOps.Ideal.Laws

noncomputable section

open scoped BigOperators

namespace Cert.ReferenceIdeal.RefValue

open Cert.ReferenceIdeal Cert.ReferenceIdeal.Gen Cert.AwqSpec
open Idealize.ShloMosaic Idealize.ShloMosaic.TcCoe Idealize.SL.Sem Idealize.ShloMosaic.ValueIdx
open Idealize.ShloMosaic.StableHlo

/-! ## The table of shifts -/

/-- The program's table of eight shifts is `shiftOf`. -/
theorem lit0_eq (e : Fin 8) : lit0 e = shiftOf e := by fin_cases e <;> rfl

/-- The table as an array, read at field `e`. -/
theorem tab_apply (e : Fin 8) : lit0 (S8.rowMajor (ix1 e)) = shiftOf e := by
  have h : S8.rowMajor (ix1 e) = e := Fin.ext (by rw [Shape.rowMajor_val_one])
  rw [h, lit0_eq]

/-- An arithmetic right shift by one of the eight shifts (all below 32) is the plain signed shift. -/
theorem shrsi_shiftOf (x : BitVec 32) (e : Fin 8) : IntOp.shrsi .host x (shiftOf e) = x.sshiftRight' (shiftOf e) := by
  unfold IntOp.shrsi
  rw [if_pos (shiftOf_lt e)]

/-! ## The unpacking read at an index -/

/-- The 4096×1376 packed words, unpacked to 4096×11008: column `J` is field `J % 8` of packed column `J / 8`. -/
theorem unpackW_apply (qw : IVec S4096x1376 32) (k : Fin 4096) (J : Fin 11008) :
    shapeCast S4096x11008
      (andi (Host.shrsi
          (broadcastInDim S4096x1376x8 ![0, 1, 2] bcast_S4096x1376x1_S4096x1376x8_0_1_2
            (broadcastInDim S4096x1376x1 ![0, 1] bcast_S4096x1376_S4096x1376x1_0_1 qw))
          (broadcastInDim S4096x1376x8 ![0, 1, 2] bcast_S1x1x8_S4096x1376x8_0_1_2
            (broadcastInDim S1x1x8 ![2] bcast_S8_S1x1x8_2 fun i => lit0 (S8.rowMajor i))))
        (broadcastInDim S4096x1376x8 ![] bcast_S_S4096x1376x8 (constantI S_ 32 15#32)))
      shapeCasts_S4096x1376x8_S4096x11008 (ix2 k J)
    = nib ⟨J.val % 8, Nat.mod_lt _ (by decide)⟩ (qw (ix2 k (⟨J.val / 8, by have := J.isLt; omega⟩ : Fin 1376))) := by
  have hc : J.val / 8 < 1376 := by have := J.isLt; omega
  have he : J.val % 8 < 8 := Nat.mod_lt _ (by decide)
  refine (shapeCast_apply _ _ (ix2 k J) (ix3 k (⟨J.val / 8, hc⟩ : Fin 1376) (⟨J.val % 8, he⟩ : Fin 8)) (by
    rw [Shape.rowMajor_val_three, Shape.rowMajor_val_two]
    show (k.val * 1376 + J.val / 8) * 8 + J.val % 8 = k.val * 11008 + J.val
    omega)).trans ?_
  show IntOp.andi (IntOp.shrsi .host
      (broadcastInDim S4096x1376x8 ![0, 1, 2] bcast_S4096x1376x1_S4096x1376x8_0_1_2
            (broadcastInDim S4096x1376x1 ![0, 1] bcast_S4096x1376_S4096x1376x1_0_1 qw) (ix3 k (⟨J.val / 8, hc⟩ : Fin 1376) (⟨J.val % 8, he⟩ : Fin 8)))
      (broadcastInDim S4096x1376x8 ![0, 1, 2] bcast_S1x1x8_S4096x1376x8_0_1_2
            (broadcastInDim S1x1x8 ![2] bcast_S8_S1x1x8_2 fun i => lit0 (S8.rowMajor i)) (ix3 k (⟨J.val / 8, hc⟩ : Fin 1376) (⟨J.val % 8, he⟩ : Fin 8))))
      15#32 = _
  rw [broadcastInDim_apply _ bcast_S4096x1376x1_S4096x1376x8_0_1_2 _ _ (ix3 k (⟨J.val / 8, hc⟩ : Fin 1376) (0 : Fin 1))
        (fun a => match a with | ⟨0, _⟩ => rfl | ⟨1, _⟩ => rfl | ⟨2, _⟩ => rfl),
    broadcastInDim_apply _ bcast_S4096x1376_S4096x1376x1_0_1 _ _ (ix2 k (⟨J.val / 8, hc⟩ : Fin 1376))
        (fun a => match a with | ⟨0, _⟩ => rfl | ⟨1, _⟩ => rfl),
    broadcastInDim_apply _ bcast_S1x1x8_S4096x1376x8_0_1_2 _ _ (ix3 (0 : Fin 1) (0 : Fin 1) (⟨J.val % 8, he⟩ : Fin 8))
        (fun a => match a with | ⟨0, _⟩ => rfl | ⟨1, _⟩ => rfl | ⟨2, _⟩ => rfl),
    broadcastInDim_apply _ bcast_S8_S1x1x8_2 _ _ (ix1 (⟨J.val % 8, he⟩ : Fin 8))
        (fun a => match a with | ⟨0, _⟩ => rfl),
    tab_apply, shrsi_shiftOf]
  rfl

/-- The 32×1376 packed zero points, unpacked to 32×11008 in the same way. -/
theorem unpackZ_apply (qz : IVec S32x1376 32) (g : Fin 32) (J : Fin 11008) :
    shapeCast S32x11008
      (andi (Host.shrsi
          (broadcastInDim S32x1376x8 ![0, 1, 2] bcast_S32x1376x1_S32x1376x8_0_1_2
            (broadcastInDim S32x1376x1 ![0, 1] bcast_S32x1376_S32x1376x1_0_1 qz))
          (broadcastInDim S32x1376x8 ![0, 1, 2] bcast_S1x1x8_S32x1376x8_0_1_2
            (broadcastInDim S1x1x8 ![2] bcast_S8_S1x1x8_2 fun i => lit0 (S8.rowMajor i))))
        (broadcastInDim S32x1376x8 ![] bcast_S_S32x1376x8 (constantI S_ 32 15#32)))
      shapeCasts_S32x1376x8_S32x11008 (ix2 g J)
    = nib ⟨J.val % 8, Nat.mod_lt _ (by decide)⟩ (qz (ix2 g (⟨J.val / 8, by have := J.isLt; omega⟩ : Fin 1376))) := by
  have hc : J.val / 8 < 1376 := by have := J.isLt; omega
  have he : J.val % 8 < 8 := Nat.mod_lt _ (by decide)
  refine (shapeCast_apply _ _ (ix2 g J) (ix3 g (⟨J.val / 8, hc⟩ : Fin 1376) (⟨J.val % 8, he⟩ : Fin 8)) (by
    rw [Shape.rowMajor_val_three, Shape.rowMajor_val_two]
    show (g.val * 1376 + J.val / 8) * 8 + J.val % 8 = g.val * 11008 + J.val
    omega)).trans ?_
  show IntOp.andi (IntOp.shrsi .host
      (broadcastInDim S32x1376x8 ![0, 1, 2] bcast_S32x1376x1_S32x1376x8_0_1_2
            (broadcastInDim S32x1376x1 ![0, 1] bcast_S32x1376_S32x1376x1_0_1 qz) (ix3 g (⟨J.val / 8, hc⟩ : Fin 1376) (⟨J.val % 8, he⟩ : Fin 8)))
      (broadcastInDim S32x1376x8 ![0, 1, 2] bcast_S1x1x8_S32x1376x8_0_1_2
            (broadcastInDim S1x1x8 ![2] bcast_S8_S1x1x8_2 fun i => lit0 (S8.rowMajor i)) (ix3 g (⟨J.val / 8, hc⟩ : Fin 1376) (⟨J.val % 8, he⟩ : Fin 8))))
      15#32 = _
  rw [broadcastInDim_apply _ bcast_S32x1376x1_S32x1376x8_0_1_2 _ _ (ix3 g (⟨J.val / 8, hc⟩ : Fin 1376) (0 : Fin 1))
        (fun a => match a with | ⟨0, _⟩ => rfl | ⟨1, _⟩ => rfl | ⟨2, _⟩ => rfl),
    broadcastInDim_apply _ bcast_S32x1376_S32x1376x1_0_1 _ _ (ix2 g (⟨J.val / 8, hc⟩ : Fin 1376))
        (fun a => match a with | ⟨0, _⟩ => rfl | ⟨1, _⟩ => rfl),
    broadcastInDim_apply _ bcast_S1x1x8_S32x1376x8_0_1_2 _ _ (ix3 (0 : Fin 1) (0 : Fin 1) (⟨J.val % 8, he⟩ : Fin 8))
        (fun a => match a with | ⟨0, _⟩ => rfl | ⟨1, _⟩ => rfl | ⟨2, _⟩ => rfl),
    broadcastInDim_apply _ bcast_S8_S1x1x8_2 _ _ (ix1 (⟨J.val % 8, he⟩ : Fin 8))
        (fun a => match a with | ⟨0, _⟩ => rfl),
    tab_apply, shrsi_shiftOf]
  rfl

/-! ## A group's row repeated over its 128 rows -/

/-- A 32×11008 array broadcast on a new middle axis of 128 and merged into 4096 rows: row `k` reads group `k / 128`. -/
theorem repeat_apply {α : Type} (v : S32x11008.Idx → α) (k : Fin 4096) (J : Fin 11008) :
    shapeCast S4096x11008 (broadcastInDim S32x128x11008 ![0, 2] bcast_S32x11008_S32x128x11008_0_2 v)
      shapeCasts_S32x128x11008_S4096x11008 (ix2 k J)
    = v (ix2 (⟨k.val / 128, by have := k.isLt; omega⟩ : Fin 32) J) := by
  have hg : k.val / 128 < 32 := by have := k.isLt; omega
  have hr : k.val % 128 < 128 := Nat.mod_lt _ (by decide)
  refine (shapeCast_apply _ _ (ix2 k J) (ix3 (⟨k.val / 128, hg⟩ : Fin 32) (⟨k.val % 128, hr⟩ : Fin 128) J) (by
    rw [Shape.rowMajor_val_three, Shape.rowMajor_val_two]
    show (k.val / 128 * 128 + k.val % 128) * 11008 + J.val = k.val * 11008 + J.val
    have := Nat.div_add_mod k.val 128
    have e : k.val / 128 * 128 + k.val % 128 = k.val := by omega
    rw [e])).trans ?_
  exact broadcastInDim_apply _ bcast_S32x11008_S32x128x11008_0_2 _ _ (ix2 (⟨k.val / 128, hg⟩ : Fin 32) J)
    (fun a => match a with | ⟨0, _⟩ => rfl | ⟨1, _⟩ => rfl)

/-! ## The contraction read at an index -/

/-- The final `dot_general` at `(i, J)`: the sum over the 4096 contracted rows of the products of the entries. -/
theorem dot_apply (A : FVec Ideal S4096x4096 .f32) (B : FVec Ideal S4096x11008 .f32) (i : Fin 4096) (J : Fin 11008) :
    Host.dotGeneral dot_S4096x4096_S4096x11008_S4096x11008_1_0_0_1_n_n none A B (ix2 i J)
      = ∑ k : Fin 4096, A (ix2 i k) * B (ix2 k J) :=
  StackMember.dotGeneral_plain_apply (m := 4096) (n := 11008) (k := 4096) none A B i J

/-! ## The value -/

/-- The reference's composed term is `G`. -/
theorem value (x : FVec Ideal S4096x4096 .f32) (qw : IVec S4096x1376 32) (sc : FVec Ideal S32x11008 .f32) (qz : IVec S32x1376 32) :
    Host.dotGeneral dot_S4096x4096_S4096x11008_S4096x11008_1_0_0_1_n_n none x
      (mulf
        (subf
          (sitofp FTy.f32 fun i =>
            shapeCast S4096x11008
              (andi
                (Host.shrsi
                  (broadcastInDim S4096x1376x8 ![0, 1, 2] bcast_S4096x1376x1_S4096x1376x8_0_1_2
                    (broadcastInDim S4096x1376x1 ![0, 1] bcast_S4096x1376_S4096x1376x1_0_1 qw))
                  (broadcastInDim S4096x1376x8 ![0, 1, 2] bcast_S1x1x8_S4096x1376x8_0_1_2
                    (broadcastInDim S1x1x8 ![2] bcast_S8_S1x1x8_2 fun i => lit0 (S8.rowMajor i))))
                (broadcastInDim S4096x1376x8 ![] bcast_S_S4096x1376x8 (constantI S_ 32 15#32)))
              shapeCasts_S4096x1376x8_S4096x11008 i)
          fun i =>
          shapeCast S4096x11008
            (broadcastInDim S32x128x11008 ![0, 2] bcast_S32x11008_S32x128x11008_0_2
              (sitofp FTy.f32 fun i =>
                shapeCast S32x11008
                  (andi
                    (Host.shrsi
                      (broadcastInDim S32x1376x8 ![0, 1, 2] bcast_S32x1376x1_S32x1376x8_0_1_2
                        (broadcastInDim S32x1376x1 ![0, 1] bcast_S32x1376_S32x1376x1_0_1 qz))
                      (broadcastInDim S32x1376x8 ![0, 1, 2] bcast_S1x1x8_S32x1376x8_0_1_2
                        (broadcastInDim S1x1x8 ![2] bcast_S8_S1x1x8_2 fun i => lit0 (S8.rowMajor i))))
                    (broadcastInDim S32x1376x8 ![] bcast_S_S32x1376x8 (constantI S_ 32 15#32)))
                  shapeCasts_S32x1376x8_S32x11008 i))
            shapeCasts_S32x128x11008_S4096x11008 i)
        fun i =>
        shapeCast S4096x11008
          (broadcastInDim S32x128x11008 ![0, 2] bcast_S32x11008_S32x128x11008_0_2 sc)
          shapeCasts_S32x128x11008_S4096x11008 i)
    = G x qw sc qz := by
  funext j
  obtain ⟨i, J, rfl⟩ : ∃ (i : Fin 4096) (J : Fin 11008), j = ix2 i J := ⟨j 0, j 1, eq_ix2 j⟩
  rw [dot_apply, G_apply]
  refine Finset.sum_congr rfl fun k _ => ?_
  unfold term W nibR
  rw [mulf_apply, subf_apply, sitofp_apply, unpackW_apply, repeat_apply, sitofp_apply, unpackZ_apply, repeat_apply]
  rfl

/-! ## The run -/

variable {F : FTy → Type} [FloatOps F]

/-- The reference's 28 operations, in order. -/
abbrev ops : List (HloOp τ sig (Elt F)) :=
  [ nullary main_c (fun i => lit0 (S8.rowMajor i)),
    unary main_arg1 main_v0 (broadcastInDim S4096x1376x1 ![0, 1] bcast_S4096x1376_S4096x1376x1_0_1 : (⟨S4096x1376, .i32⟩ : BufTy).Contents (Elt F) → (⟨S4096x1376x1, .i32⟩ : BufTy).Contents (Elt F)),
    unary main_c main_v1 (broadcastInDim S1x1x8 ![2] bcast_S8_S1x1x8_2 : (⟨S8, .i32⟩ : BufTy).Contents (Elt F) → (⟨S1x1x8, .i32⟩ : BufTy).Contents (Elt F)),
    unary main_v0 main_v2 (broadcastInDim S4096x1376x8 ![0, 1, 2] bcast_S4096x1376x1_S4096x1376x8_0_1_2 : (⟨S4096x1376x1, .i32⟩ : BufTy).Contents (Elt F) → (⟨S4096x1376x8, .i32⟩ : BufTy).Contents (Elt F)),
    unary main_v1 main_v3 (broadcastInDim S4096x1376x8 ![0, 1, 2] bcast_S1x1x8_S4096x1376x8_0_1_2 : (⟨S1x1x8, .i32⟩ : BufTy).Contents (Elt F) → (⟨S4096x1376x8, .i32⟩ : BufTy).Contents (Elt F)),
    binary main_v2 main_v3 main_v4 (Host.shrsi : (⟨S4096x1376x8, .i32⟩ : BufTy).Contents (Elt F) → (⟨S4096x1376x8, .i32⟩ : BufTy).Contents (Elt F) → (⟨S4096x1376x8, .i32⟩ : BufTy).Contents (Elt F)),
    nullary main_c_0 (constantI S_ 32 15#32),
    unary main_c_0 main_v5 (broadcastInDim S4096x1376x8 ![] bcast_S_S4096x1376x8 : (⟨S_, .i32⟩ : BufTy).Contents (Elt F) → (⟨S4096x1376x8, .i32⟩ : BufTy).Contents (Elt F)),
    binary main_v4 main_v5 main_v6 (andi : (⟨S4096x1376x8, .i32⟩ : BufTy).Contents (Elt F) → (⟨S4096x1376x8, .i32⟩ : BufTy).Contents (Elt F) → (⟨S4096x1376x8, .i32⟩ : BufTy).Contents (Elt F)),
    reshape main_v6 main_v7 rfl shapeCasts_S4096x1376x8_S4096x11008,
    unary main_v7 main_v8 (sitofp .f32 : (⟨S4096x11008, .i32⟩ : BufTy).Contents (Elt F) → (⟨S4096x11008, .f32⟩ : BufTy).Contents (Elt F)),
    unary main_arg3 main_v9 (broadcastInDim S32x1376x1 ![0, 1] bcast_S32x1376_S32x1376x1_0_1 : (⟨S32x1376, .i32⟩ : BufTy).Contents (Elt F) → (⟨S32x1376x1, .i32⟩ : BufTy).Contents (Elt F)),
    unary main_c main_v10 (broadcastInDim S1x1x8 ![2] bcast_S8_S1x1x8_2 : (⟨S8, .i32⟩ : BufTy).Contents (Elt F) → (⟨S1x1x8, .i32⟩ : BufTy).Contents (Elt F)),
    unary main_v9 main_v11 (broadcastInDim S32x1376x8 ![0, 1, 2] bcast_S32x1376x1_S32x1376x8_0_1_2 : (⟨S32x1376x1, .i32⟩ : BufTy).Contents (Elt F) → (⟨S32x1376x8, .i32⟩ : BufTy).Contents (Elt F)),
    unary main_v10 main_v12 (broadcastInDim S32x1376x8 ![0, 1, 2] bcast_S1x1x8_S32x1376x8_0_1_2 : (⟨S1x1x8, .i32⟩ : BufTy).Contents (Elt F) → (⟨S32x1376x8, .i32⟩ : BufTy).Contents (Elt F)),
    binary main_v11 main_v12 main_v13 (Host.shrsi : (⟨S32x1376x8, .i32⟩ : BufTy).Contents (Elt F) → (⟨S32x1376x8, .i32⟩ : BufTy).Contents (Elt F) → (⟨S32x1376x8, .i32⟩ : BufTy).Contents (Elt F)),
    nullary main_c_1 (constantI S_ 32 15#32),
    unary main_c_1 main_v14 (broadcastInDim S32x1376x8 ![] bcast_S_S32x1376x8 : (⟨S_, .i32⟩ : BufTy).Contents (Elt F) → (⟨S32x1376x8, .i32⟩ : BufTy).Contents (Elt F)),
    binary main_v13 main_v14 main_v15 (andi : (⟨S32x1376x8, .i32⟩ : BufTy).Contents (Elt F) → (⟨S32x1376x8, .i32⟩ : BufTy).Contents (Elt F) → (⟨S32x1376x8, .i32⟩ : BufTy).Contents (Elt F)),
    reshape main_v15 main_v16 rfl shapeCasts_S32x1376x8_S32x11008,
    unary main_v16 main_v17 (sitofp .f32 : (⟨S32x11008, .i32⟩ : BufTy).Contents (Elt F) → (⟨S32x11008, .f32⟩ : BufTy).Contents (Elt F)),
    unary main_v17 main_v18 (broadcastInDim S32x128x11008 ![0, 2] bcast_S32x11008_S32x128x11008_0_2 : (⟨S32x11008, .f32⟩ : BufTy).Contents (Elt F) → (⟨S32x128x11008, .f32⟩ : BufTy).Contents (Elt F)),
    reshape main_v18 main_v19 rfl shapeCasts_S32x128x11008_S4096x11008,
    unary main_arg2 main_v20 (broadcastInDim S32x128x11008 ![0, 2] bcast_S32x11008_S32x128x11008_0_2 : (⟨S32x11008, .f32⟩ : BufTy).Contents (Elt F) → (⟨S32x128x11008, .f32⟩ : BufTy).Contents (Elt F)),
    reshape main_v20 main_v21 rfl shapeCasts_S32x128x11008_S4096x11008,
    binary main_v8 main_v19 main_v22 (subf : (⟨S4096x11008, .f32⟩ : BufTy).Contents (Elt F) → (⟨S4096x11008, .f32⟩ : BufTy).Contents (Elt F) → (⟨S4096x11008, .f32⟩ : BufTy).Contents (Elt F)),
    binary main_v22 main_v21 main_v23 (mulf : (⟨S4096x11008, .f32⟩ : BufTy).Contents (Elt F) → (⟨S4096x11008, .f32⟩ : BufTy).Contents (Elt F) → (⟨S4096x11008, .f32⟩ : BufTy).Contents (Elt F)),
    binary main_arg0 main_v23 main_v24 ((fun l r => Host.dotGeneral dot_S4096x4096_S4096x11008_S4096x11008_1_0_0_1_n_n none l r) : (⟨S4096x4096, .f32⟩ : BufTy).Contents (Elt F) → (⟨S4096x11008, .f32⟩ : BufTy).Contents (Elt F) → (⟨S4096x11008, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., unary_bufs_sub .., unary_bufs_sub .., unary_bufs_sub .., binary_bufs_sub ..,
   nullary_bufs_sub .., unary_bufs_sub .., binary_bufs_sub .., reshape_bufs_sub .., unary_bufs_sub ..,
   unary_bufs_sub .., unary_bufs_sub .., unary_bufs_sub .., unary_bufs_sub .., binary_bufs_sub ..,
   nullary_bufs_sub .., unary_bufs_sub .., binary_bufs_sub .., reshape_bufs_sub .., unary_bufs_sub ..,
   unary_bufs_sub .., reshape_bufs_sub .., unary_bufs_sub .., reshape_bufs_sub ..,
   binary_bufs_sub .., binary_bufs_sub .., binary_bufs_sub ..⟩

/-- On every device, from any memory with zero counters: every weakly fair execution of the reference terminates
    with its result at `G` of the four arguments, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v24)
          = G (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c main_v24).trans (by after_results_simp; exact value _ _ _ _),
      (h c main_arg0).trans (by after_results_simp),
      (h c main_arg1).trans (by after_results_simp),
      (h c main_arg2).trans (by after_results_simp),
      (h c main_arg3).trans (by after_results_simp)⟩)
    (run_seq scopedRefs_eq scopedSems_eq defs main (fun _ => ops) main_eq (fun _ => ops_sub) m ρ)

end Cert.ReferenceIdeal.RefValue

end
-- ==== Proof.lean ====
/-
  The certificate's claims for the AWQ int4 dequantize-and-multiply kernel against its jnp reference.

  Both programs compute `G = x · Wdeq` over the extended reals, where column J of the dequantized weights reads the
  4-bit field J % 8 of packed column J / 8 (the fields of a word sit at bit offsets 0, 16, 4, 20, 8, 24, 12, 28),
  minus the same field of the row group's packed zero point, times the row group's scale (groups of 128 rows):
  `Cert.AwqSpec.G`. The kernel tiles the product in 256×1024 output blocks and accumulates over the 32 row groups;
  the reference dequantizes whole and takes one dot_general. The two agree because a sum over 4096 rows is the sum of
  its 32 group sums; no law used needs finiteness, so the precondition is not opened.

  * the word-level kernel's frame: the pipeline's run with proof data that say nothing of the staging contents;
  * the idealized kernel's frame and value: the run with the accumulator tracked on the columns inside the array;
  * the reference's frame and value: its host operations run one after the other and read at an index;
  * `preserves` is trivial: the ideal pass rewrote nothing.
-/
import proofs.«414033_j56195352101389_4_alg».proof.Defs
import proofs.«414033_j56195352101389_4_alg».proof.Proof.Gen.Kernel
import proofs.«414033_j56195352101389_4_alg».proof.Proof.Gen.KernelIdeal
import proofs.«414033_j56195352101389_4_alg».proof.Proof.Gen.ReferenceIdeal
import proofs.«414033_j56195352101389_4_alg».proof.Proof.Gen.Pre_finite_inputs
import proofs.«414033_j56195352101389_4_alg».proof.Proof.KBody
import proofs.«414033_j56195352101389_4_alg».proof.Proof.KIBody
import proofs.«414033_j56195352101389_4_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Awq.frame (F := Bits) m ρ

/-- The idealized kernel runs and leaves its arguments unchanged: its value run with the result dropped. -/
theorem frame_ki : Cert.frame_KernelIdeal := fun m ρ _ =>
  (θ_run Cert.KernelIdeal.defs _ _).mono (fun _ h c => (h c).2) (Cert.KernelIdeal.Awq.run_value m ρ)

/-- The reference runs and leaves its arguments unchanged: its value run with the result dropped. -/
theorem frame_ri : Cert.frame_ReferenceIdeal := fun m ρ _ =>
  (θ_run Cert.ReferenceIdeal.defs _ _).mono (fun _ h c => (h c).2) (Cert.ReferenceIdeal.RefValue.run m ρ)

/-- From memories that agree on the arguments both idealized programs end with the result at `G` of those
    arguments. -/
theorem algebraic : Cert.algebraic_KernelIdeal_ReferenceIdeal := by
  intro m ρ m' ρ' _ hagree
  refine ⟨_, Cert.KernelIdeal.Awq.run_value m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
